-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x128 : Shape := ⟨2, ![64, 128]⟩
abbrev S800000x16 : Shape := ⟨2, ![800000, 16]⟩
abbrev S272x256 : Shape := ⟨2, ![272, 256]⟩
abbrev S256 : Shape := ⟨1, ![256]⟩
abbrev S256x1 : Shape := ⟨2, ![256, 1]⟩
abbrev S1 : Shape := ⟨1, ![1]⟩
abbrev S2x800000 : Shape := ⟨2, ![2, 800000]⟩
abbrev S50000 : Shape := ⟨1, ![50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S800000x16 : S_.BroadcastsInDim S800000x16 (![] : Fin 0 → Fin S800000x16.rank)
  reducesTo_S800000x16_S_d0_1 : S800000x16.ReducesTo [0, 1] S_
  bcast_S_S272x256 : S_.BroadcastsInDim S272x256 (![] : Fin 0 → Fin S272x256.rank)
  reducesTo_S272x256_S_d0_1 : S272x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg7 : IVec S2x800000 32) (main_arg8 : IVec S50000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg7 main_v34
  let main_c_13 : IVec S_ 1 := constantI S_ 1 1#1
  let main_v36 : IVec S_ 1 := (fun x v => Host.reduce IntOp.andi x v reducesTo_S2x800000_S_d0_1 h_S_) main_v35 main_c_13
  let main_v37 : IVec S_ 1 := andi main_v33 main_v36
  let main_c_14 : IVec S_ 32 := constantI S_ 32 50000#32
  let main_v38 : IVec S2x800000 32 := broadcastInDim S2x800000 ![] bcast_S_S2x800000 main_c_14
  let main_v39 : IVec S2x800000 1 := cmpi .slt main_arg7 main_v38
  let main_c_15 : IVec S_ 1 := constantI S_ 1 1#1
  let main_v40 : IVec S_ 1 := (fun x v => Host.reduce IntOp.andi x v reducesTo_S2x800000_S_d0_1 h_S_) main_v39 main_c_15
  let main_v41 : IVec S_ 1 := andi main_v37 main_v40
  let main_c_16 : IVec S_ 32 := constantI S_ 32 0#32
  let main_v42 : IVec S50000 32 := broadcastInDim S50000 ![] bcast_S_S50000 main_c_16
  let main_v43 : IVec S50000 1 := cmpi .sge main_arg8 main_v42
  let main_c_17 : IVec S_ 1 := constantI S_ 1 1#1
  let main_v44 : IVec S_ 1 := (fun x v => Host.reduce IntOp.andi x v reducesTo_S50000_S_d0 h_S_) main_v43 main_c_17
  let main_v45 : IVec S_ 1 := andi main_v41 main_v44
  let main_c_18 : IVec S_ 32 := constantI S_ 32 64#32
  let main_v46 : IVec S50000 32 := broadcastInDim S50000 ![] bcast_S_S50000 main_c_18
  let main_v47 : IVec S50000 1 := cmpi .slt main_arg8 main_v46
  let main_c_19 : IVec S_ 1 := constantI S_ 1 1#1
  let main_v48 : IVec S_ 1 := (fun x v => Host.reduce IntOp.andi x v reducesTo_S50000_S_d0 h_S_) main_v47 main_c_19
  let main_v49 : IVec S_ 1 := andi main_v45 main_v48
  main_v49

def fn_part1 {F : FTy → Type} [FloatOps F] (main_arg4 : FVec F S256 .f32) (main_arg5 : FVec F S256x1 .f32) (main_arg6 : FVec F S1 .f32) (main_arg7 : IVec S2x800000 32) (main_arg8 : IVec S50000 32) (main_v13 : IVec S_ 1) (main_v16 : IVec S272x256 1) : IVec S_ 1 :=
  let main_c_5 : IVec S_ 1 := constantI S_ 1 1#1
  let main_v17 : IVec S_ 1 := (fun x v => Host.reduce IntOp.andi x v reducesTo_S272x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S50000x64 .f32) (main_arg1 : FVec F S64x128 .f32) (main_arg2 : FVec F S800000x16 .f32) (main_arg3 : FVec F S272x256 .f32) (main_arg4 : FVec F S256 .f32) (main_arg5 : FVec F S256x1 .f32) (main_arg6 : FVec F S1 .f32) (main_arg7 : IVec S2x800000 32) (main_arg8 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S800000x16 .f32 := Host.absf main_arg2
  let main_cst_2 : FVec F S_ .f32 := constant S_ .f32 0x7F800000#32
  let main_v10 : FVec F S800000x16 .f32 := broadcastInDim S800000x16 ![] bcast_S_S800000x16 main_cst_2
  let main_v11 : IVec S800000x16 1 := cmpf .olt main_v9 main_v10
  let main_c_3 : IVec S_ 1 := constantI S_ 1 1#1
  let main_v12 : IVec S_ 1 := (fun x v => Host.reduce IntOp.andi x v reducesTo_S800000x16_S_d0_1 h_S_) main_v11 main_c_3
  let main_v13 : IVec S_ 1 := andi main_v8 main_v12
  let main_v14 : FVec F S272x256 .f32 := Host.absf main_arg3
  let main_cst_4 : FVec F S_ .f32 := constant S_ .f32 0x7F800000#32
  let main_v15 : FVec F S272x256 .f32 := broadcastInDim S272x256 ![] bcast_S_S272x256 main_cst_4
  let main_v16 : IVec S272x256 1 := cmpf .olt main_v14 main_v15
  fn_part1 (F := F) main_arg4 main_arg5 main_arg6 main_arg7 main_arg8 main_v13 main_v16
-- ==== Kernel.lean ====
abbrev S50000x64 : Shape := ⟨2, ![50000, 64]⟩
abbrev S64x128 : Shape := ⟨2, ![64, 128]⟩
abbrev S800000x16 : Shape := ⟨2, ![800000, 16]⟩
abbrev S272x256 : Shape := ⟨2, ![272, 256]⟩
abbrev S256 : Shape := ⟨1, ![256]⟩
abbrev S256x1 : Shape := ⟨2, ![256, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S802816 : Shape := ⟨1, ![802816]⟩
abbrev S802816x16 : Shape := ⟨2, ![802816, 16]⟩
abbrev S802816x1 : Shape := ⟨2, ![802816, 1]⟩
abbrev S1x1 : Shape := ⟨2, ![1, 1]⟩
abbrev S802816x64 : Shape := ⟨2, ![802816, 64]⟩
abbrev S64x256 : Shape := ⟨2, ![64, 256]⟩
abbrev S16x256 : Shape := ⟨2, ![16, 256]⟩
abbrev S128x256 : Shape := ⟨2, ![128, 256]⟩
abbrev S1x256 : Shape := ⟨2, ![1, 256]⟩
abbrev S4096x64 : Shape := ⟨2, ![4096, 64]⟩
abbrev S4096x16 : Shape := ⟨2, ![4096, 16]⟩
abbrev S4096x1 : Shape := ⟨2, ![4096, 1]⟩
abbrev S4096x256 : Shape := ⟨2, ![4096, 256]⟩
abbrev S800000x1 : Shape := ⟨2, ![800000, 1]⟩

abbrev nBuf : Space → Nat
  | .hbm => 101
  | .vmem => 17
  | .smem => 0
  | _ => 0

abbrev bufTy : (tb : Table) → Fin (tcTables nBuf tb) → BufTy
  | .hbm, ⟨0, _⟩ => ⟨S50000x64, .f32⟩
  | .hbm, ⟨1, _⟩ => ⟨S64x128, .f32⟩
  | .hbm, ⟨2, _⟩ => ⟨S800000x16, .f32⟩
  | .hbm, ⟨3, _⟩ => ⟨S272x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S2x800000, .i32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S_, .i32⟩
  | .hbm, ⟨15, _⟩ => ⟨S802816, .i32⟩
  | .hbm, ⟨16, _⟩ => ⟨S_, .i32⟩
  | .hbm, ⟨17, _⟩ => ⟨S_, .i32⟩
  | .hbm, ⟨18, _⟩ => ⟨S802816, .i32⟩
  | .hbm, ⟨19, _⟩ => ⟨S_, .i32⟩
  | .hbm, ⟨20, _⟩ => ⟨S_, .f32⟩
  | .hbm, ⟨21, _⟩ => ⟨S802816x16, .f32⟩
  | .hbm, ⟨22, _⟩ => ⟨S_, .i32⟩
  | .hbm, ⟨23, _⟩ => ⟨S802816, .i32⟩
  | .hbm, ⟨24, _⟩ => ⟨S802816, .i1⟩
  | .hbm, ⟨25, _⟩ => ⟨S_, .i32⟩
  | .hbm, ⟨26, _⟩ => ⟨S802816, .i32⟩
  | .hbm, ⟨27, _⟩ => ⟨S802816, .i32⟩
  | .hbm, ⟨28, _⟩ => ⟨S802816, .i32⟩
  | .hbm, ⟨29, _⟩ => ⟨S802816x1, .i32⟩
  | .hbm, ⟨30, _⟩ => ⟨S1, .i32⟩
  | .hbm, ⟨31, _⟩ => ⟨S_, .i32⟩
  | .hbm, ⟨32, _⟩ => ⟨S802816x1, .i32⟩
  | .hbm, ⟨33, _⟩ => ⟨S802816x1, .i1⟩
  | .hbm, ⟨34, _⟩ => ⟨S1x1, .i32⟩
  | .hbm, ⟨35, _⟩ => ⟨S802816x1, .i32⟩
  | .hbm, ⟨36, _⟩ => ⟨S802816x1, .i1⟩
  | .hbm, ⟨37, _⟩ => ⟨S802816x1, .i1⟩
  | .hbm, ⟨38, _⟩ => ⟨S_, .i1⟩
  | .hbm, ⟨39, _⟩ => ⟨S802816, .i1⟩
  | .hbm, ⟨40, _⟩ => ⟨S802816x64, .f32⟩
  | .hbm, ⟨41, _⟩ => ⟨S802816x64, .i1⟩
  | .hbm, ⟨42, _⟩ => ⟨S_, .f32⟩
  | .hbm, ⟨43, _⟩ => ⟨S802816x64, .f32⟩
  | .hbm, ⟨44, _⟩ => ⟨S802816x64, .f32⟩
  | .hbm, ⟨45, _⟩ => ⟨S_, .i32⟩
  | .hbm, ⟨46, _⟩ => ⟨S802816, .i32⟩
  | .hbm, ⟨47, _⟩ => ⟨S802816, .i1⟩
  | .hbm, ⟨48, _⟩ => ⟨S_, .i32⟩
  | .hbm, ⟨49, _⟩ => ⟨S802816, .i32⟩
  | .hbm, ⟨50, _⟩ => ⟨S802816, .i32⟩
  | .hbm, ⟨51, _⟩ => ⟨S802816, .i32⟩
  | .hbm, ⟨52, _⟩ => ⟨S802816x1, .i32⟩
  | .hbm, ⟨53, _⟩ => ⟨S1, .i32⟩
  | .hbm, ⟨54, _⟩ => ⟨S_, .i32⟩
  | .hbm, ⟨55, _⟩ => ⟨S802816x1, .i32⟩
  | .hbm, ⟨56, _⟩ => ⟨S802816x1, .i1⟩
  | .hbm, ⟨57, _⟩ => ⟨S1x1, .i32⟩
  | .hbm, ⟨58, _⟩ => ⟨S802816x1, .i32⟩
  | .hbm, ⟨59, _⟩ => ⟨S802816x1, .i1⟩
  | .hbm, ⟨60, _⟩ => ⟨S802816x1, .i1⟩
  | .hbm, ⟨61, _⟩ => ⟨S_, .i1⟩
  | .hbm, ⟨62, _⟩ => ⟨S802816, .i1⟩
  | .hbm, ⟨63, _⟩ => ⟨S802816x64, .f32⟩
  | .hbm, ⟨64, _⟩ => ⟨S802816x64, .i1⟩
  | .hbm, ⟨65, _⟩ => ⟨S_, .f32⟩
  | .hbm, ⟨66, _⟩ => ⟨S802816x64, .f32⟩
  | .hbm, ⟨67, _⟩ => ⟨S802816x64, .f32⟩
  | .hbm, ⟨68, _⟩ => ⟨S_, .i32⟩
  | .hbm, ⟨69, _⟩ => ⟨S802816, .i32⟩
  | .hbm, ⟨70, _⟩ => ⟨S802816, .i1⟩
  | .hbm, ⟨71, _⟩ => ⟨S_, .i32⟩
  | .hbm, ⟨72, _⟩ => ⟨S802816, .i32⟩
  | .hbm, ⟨73, _⟩ => ⟨S802816, .i32⟩
  | .hbm, ⟨74, _⟩ => ⟨S802816, .i32⟩
  | .hbm, ⟨75, _⟩ => ⟨S802816x1, .i32⟩
  | .hbm, ⟨76, _⟩ => ⟨S1, .i32⟩
  | .hbm, ⟨77, _⟩ => ⟨S_, .i32⟩
  | .hbm, ⟨78, _⟩ => ⟨S802816x1, .i32⟩
  | .hbm, ⟨79, _⟩ => ⟨S802816x1, .i1⟩
  | .hbm, ⟨80, _⟩ => ⟨S1x1, .i32⟩
  | .hbm, ⟨81, _⟩ => ⟨S802816x1, .i32⟩
  | .hbm, ⟨82, _⟩ => ⟨S802816x1, .i1⟩
  | .hbm, ⟨83, _⟩ => ⟨S802816x1, .i1⟩
  | .hbm, ⟨84, _⟩ => ⟨S_, .i1⟩
  | .hbm, ⟨85, _⟩ => ⟨S802816, .i1⟩
  | .hbm, ⟨86, _⟩ => ⟨S802816, .i32⟩
  | .hbm, ⟨87, _⟩ => ⟨S_, .i32⟩
  | .hbm, ⟨88, _⟩ => ⟨S802816, .i32⟩
  | .hbm, ⟨89, _⟩ => ⟨S802816, .i32⟩
  | .hbm, ⟨90, _⟩ => ⟨S802816x1, .i32⟩
  | .hbm, ⟨91, _⟩ => ⟨S64x256, .f32⟩
  | .hbm, ⟨92, _⟩ => ⟨S64x256, .f32⟩
  | .hbm, ⟨93, _⟩ => ⟨S16x256, .f32⟩
  | .hbm, ⟨94, _⟩ => ⟨S128x256, .f32⟩
  | .hbm, ⟨95, _⟩ => ⟨S64x256, .f32⟩
  | .hbm, ⟨96, _⟩ => ⟨S1x256, .f32⟩
  | .hbm, ⟨97, _⟩ => ⟨S1x1, .f32⟩
  | .hbm, ⟨98, _⟩ => ⟨S802816x1, .f32⟩
  | .hbm, ⟨99, _⟩ => ⟨S800000x1, .f32⟩
  | .hbm, ⟨100, _⟩ => ⟨S800000, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x16, .f32⟩
  | .local _ .vmem, ⟨5, _⟩ => ⟨S4096x16, .f32⟩
  | .local _ .vmem, ⟨6, _⟩ => ⟨S4096x1, .i32⟩
  | .local _ .vmem, ⟨7, _⟩ => ⟨S4096x1, .i32⟩
  | .local _ .vmem, ⟨8, _⟩ => ⟨S64x256, .f32⟩
  | .local _ .vmem, ⟨9, _⟩ => ⟨S64x256, .f32⟩
  | .local _ .vmem, ⟨10, _⟩ => ⟨S16x256, .f32⟩
  | .local _ .vmem, ⟨11, _⟩ => ⟨S64x256, .f32⟩
  | .local _ .vmem, ⟨12, _⟩ => ⟨S1x256, .f32⟩
  | .local _ .vmem, ⟨13, _⟩ => ⟨S256x1, .f32⟩
  | .local _ .vmem, ⟨14, _⟩ => ⟨S1x1, .f32⟩
  | .local _ .vmem, ⟨15, _⟩ => ⟨S4096x1, .f32⟩
  | .local _ .vmem, ⟨16, _⟩ => ⟨S4096x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_c_1 : Ref sig .tc := ⟨.hbm, 19, rfl⟩
abbrev main_call2_v0 : Ref sig .tc := ⟨.hbm, 20, rfl⟩
abbrev main_v6 : Ref sig .tc := ⟨.hbm, 21, rfl⟩
abbrev main_call3_c : Ref sig .tc := ⟨.hbm, 22, rfl⟩
abbrev main_call3_v0 : Ref sig .tc := ⟨.hbm, 23, rfl⟩
abbrev main_call3_v1 : Ref sig .tc := ⟨.hbm, 24, rfl⟩
abbrev main_call3_c_0 : Ref sig .tc := ⟨.hbm, 25, rfl⟩
abbrev main_call3_v2 : Ref sig .tc := ⟨.hbm, 26, rfl⟩
abbrev main_call3_v3 : Ref sig .tc := ⟨.hbm, 27, rfl⟩
abbrev main_call3_v4 : Ref sig .tc := ⟨.hbm, 28, rfl⟩
abbrev main_call3_v5 : Ref sig .tc := ⟨.hbm, 29, rfl⟩
abbrev main_call3_c_1 : Ref sig .tc := ⟨.hbm, 30, rfl⟩
abbrev main_call3_c_2 : Ref sig .tc := ⟨.hbm, 31, rfl⟩
abbrev main_call3_v6 : Ref sig .tc := ⟨.hbm, 32, rfl⟩
abbrev main_call3_v7 : Ref sig .tc := ⟨.hbm, 33, rfl⟩
abbrev main_call3_v8 : Ref sig .tc := ⟨.hbm, 34, rfl⟩
abbrev main_call3_v9 : Ref sig .tc := ⟨.hbm, 35, rfl⟩
abbrev main_call3_v10 : Ref sig .tc := ⟨.hbm, 36, rfl⟩
abbrev main_call3_v11 : Ref sig .tc := ⟨.hbm, 37, rfl⟩
abbrev main_call3_c_3 : Ref sig .tc := ⟨.hbm, 38, rfl⟩
abbrev main_call3_v12 : Ref sig .tc := ⟨.hbm, 39, rfl⟩
abbrev main_call3_v13 : Ref sig .tc := ⟨.hbm, 40, rfl⟩
abbrev main_call3_v14 : Ref sig .tc := ⟨.hbm, 41, rfl⟩
abbrev main_call3_cst : Ref sig .tc := ⟨.hbm, 42, rfl⟩
abbrev main_call3_v15 : Ref sig .tc := ⟨.hbm, 43, rfl⟩
abbrev main_v7 : Ref sig .tc := ⟨.hbm, 44, rfl⟩
abbrev main_call4_c : Ref sig .tc := ⟨.hbm, 45, rfl⟩
abbrev main_call4_v0 : Ref sig .tc := ⟨.hbm, 46, rfl⟩
abbrev main_call4_v1 : Ref sig .tc := ⟨.hbm, 47, rfl⟩
abbrev main_call4_c_0 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_call4_v5 : Ref sig .tc := ⟨.hbm, 52, rfl⟩
abbrev main_call4_c_1 : Ref sig .tc := ⟨.hbm, 53, rfl⟩
abbrev main_call4_c_2 : Ref sig .tc := ⟨.hbm, 54, rfl⟩
abbrev main_call4_v6 : Ref sig .tc := ⟨.hbm, 55, rfl⟩
abbrev main_call4_v7 : Ref sig .tc := ⟨.hbm, 56, rfl⟩
abbrev main_call4_v8 : Ref sig .tc := ⟨.hbm, 57, rfl⟩
abbrev main_call4_v9 : Ref sig .tc := ⟨.hbm, 58, rfl⟩
abbrev main_call4_v10 : Ref sig .tc := ⟨.hbm, 59, rfl⟩
abbrev main_call4_v11 : Ref sig .tc := ⟨.hbm, 60, rfl⟩
abbrev main_call4_c_3 : Ref sig .tc := ⟨.hbm, 61, rfl⟩
abbrev main_call4_v12 : Ref sig .tc := ⟨.hbm, 62, rfl⟩
abbrev main_call4_v13 : Ref sig .tc := ⟨.hbm, 63, rfl⟩
abbrev main_call4_v14 : Ref sig .tc := ⟨.hbm, 64, rfl⟩
abbrev main_call4_cst : Ref sig .tc := ⟨.hbm, 65, rfl⟩
abbrev main_call4_v15 : Ref sig .tc := ⟨.hbm, 66, rfl⟩
abbrev main_v8 : Ref sig .tc := ⟨.hbm, 67, rfl⟩
abbrev main_call5_c : Ref sig .tc := ⟨.hbm, 68, rfl⟩
abbrev main_call5_v0 : Ref sig .tc := ⟨.hbm, 69, rfl⟩
abbrev main_call5_v1 : Ref sig .tc := ⟨.hbm, 70, rfl⟩
abbrev main_call5_c_0 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_call5_v5 : Ref sig .tc := ⟨.hbm, 75, rfl⟩
abbrev main_call5_c_1 : Ref sig .tc := ⟨.hbm, 76, rfl⟩
abbrev main_call5_c_2 : Ref sig .tc := ⟨.hbm, 77, rfl⟩
abbrev main_call5_v6 : Ref sig .tc := ⟨.hbm, 78, rfl⟩
abbrev main_call5_v7 : Ref sig .tc := ⟨.hbm, 79, rfl⟩
abbrev main_call5_v8 : Ref sig .tc := ⟨.hbm, 80, rfl⟩
abbrev main_call5_v9 : Ref sig .tc := ⟨.hbm, 81, rfl⟩
abbrev main_call5_v10 : Ref sig .tc := ⟨.hbm, 82, rfl⟩
abbrev main_call5_v11 : Ref sig .tc := ⟨.hbm, 83, rfl⟩
abbrev main_call5_c_3 : Ref sig .tc := ⟨.hbm, 84, rfl⟩
abbrev main_call5_v12 : Ref sig .tc := ⟨.hbm, 85, rfl⟩
abbrev main_call5_v13 : Ref sig .tc := ⟨.hbm, 86, rfl⟩
abbrev main_call5_c_4 : Ref sig .tc := ⟨.hbm, 87, rfl⟩
abbrev main_call5_v14 : Ref sig .tc := ⟨.hbm, 88, rfl⟩
abbrev main_v9 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_v17 : Ref sig .tc := ⟨.hbm, 97, rfl⟩
abbrev main_v18 : Ref sig .tc := ⟨.hbm, 98, rfl⟩
abbrev main_v19 : Ref sig .tc := ⟨.hbm, 99, rfl⟩
abbrev main_v20 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  pads_S800000_S802816_028160 : S800000.Pads (![0] : Fin 1 → Nat) ![2816] ![0] S802816
  h_S_ : 0 < S_.numel
  pads_S800000x16_S802816x16_028160_000 : S800000x16.Pads (![0, 0] : Fin 2 → Nat) ![2816, 0] ![0, 0] S802816x16
  bcast_S_S802816 : S_.BroadcastsInDim S802816 (![] : Fin 0 → Fin S802816.rank)
  bcast_S802816_S802816x1_0 : S802816.BroadcastsInDim S802816x1 (![0] : Fin 1 → Fin S802816x1.rank)
  bcast_S_S802816x1 : S_.BroadcastsInDim S802816x1 (![] : Fin 0 → Fin S802816x1.rank)
  bcast_S1_S1x1_1 : S1.BroadcastsInDim S1x1 (![1] : Fin 1 → Fin S1x1.rank)
  bcast_S1x1_S802816x1_0_1 : S1x1.BroadcastsInDim S802816x1 (![0, 1] : Fin 2 → Fin S802816x1.rank)
  reducesTo_S802816x1_S802816_d1 : S802816x1.ReducesTo [1] S802816
  bcast_S802816_S802816x64_0 : S802816.BroadcastsInDim S802816x64 (![0] : Fin 1 → Fin S802816x64.rank)
  bcast_S_S802816x64 : S_.BroadcastsInDim S802816x64 (![] : Fin 0 → Fin S802816x64.rank)
  shapeCasts_S802816_S802816x1 : S802816.ShapeCasts S802816x1
  slices_S272x256_S64x256_0_0 : S272x256.Slices ![0, 0] S64x256
  slices_S272x256_S64x256_64_0 : S272x256.Slices ![64, 0] S64x256
  slices_S272x256_S16x256_128_0 : S272x256.Slices ![128, 0] S16x256
  slices_S272x256_S128x256_144_0 : S272x256.Slices ![144, 0] S128x256
  shapeCasts_S256_S1x256 : S256.ShapeCasts S1x256
  shapeCasts_S1_S1x1 : S1.ShapeCasts S1x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S4096x64_d1_w32 : S4096x64.Iotas .tc 32 [1]
  broadcasts_S4096x1_S4096x64 : S4096x1.Broadcasts S4096x64
  natLt_1_32 : 1 < 32
  broadcasts_S1x256_S4096x256 : S1x256.Broadcasts S4096x256
  broadcasts_S1x1_S4096x1 : S1x1.Broadcasts S4096x1
  slices_S802816x1_S800000x1_0_0 : S802816x1.Slices ![0, 0] S800000x1
  shapeCasts_S800000x1_S800000 : S800000x1.ShapeCasts S800000
  gather_S50000x64_S802816x1_S802816x64_1_0_n_n_0_1_164_wf : GatherDims.WF S50000x64 S802816x1 S802816x64 [1] [0] [] [0] [] 1 ![1, 64]
  gather_S50000_S802816x1_S802816_n_0_n_n_0_1_1_wf : GatherDims.WF S50000 S802816x1 S802816 [] [0] [] [0] [] 1 ![1]
  dot_S64x128_S128x256_S64x256_1_0_0_1_n_n_wf : DotDims.WF S64x128 S128x256 S64x256 [1] [0] [0] [1] [] []
  dot_S4096x64_S64x256_S4096x256_1_0_0_1_n_n_wf : DotDims.WF S4096x64 S64x256 S4096x256 [1] [0] [0] [1] [] []
  dot_S4096x16_S16x256_S4096x256_1_0_0_1_n_n_wf : DotDims.WF S4096x16 S16x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S802816x64.size a
  hwx0_0 : ∀ i : grid0.Coords, EltTy.bits .f32 = 32 ∨ (Rect.block (s := S802816x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S802816x64.size a
  hwx0_1 : ∀ i : grid0.Coords, EltTy.bits .f32 = 32 ∨ (Rect.block (s := S802816x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S802816x16.size a
  hwx0_2 : ∀ i : grid0.Coords, EltTy.bits .f32 = 32 ∨ (Rect.block (s := S802816x16) S4096x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S802816x1.size a
  hwx0_3 : ∀ i : grid0.Coords, EltTy.bits .i32 = 32 ∨ (Rect.block (s := S802816x1) S4096x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S16x256.size a
  hwx0_6 : ∀ i : grid0.Coords, EltTy.bits .f32 = 32 ∨ (Rect.block (s := S16x256) S16x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .f32 = 32 ∨ (Rect.block (s := S64x256) S64x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .f32 = 32 ∨ (Rect.block (s := S256x1) S256x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x1.size a ≤ S802816x1.size a
  hwx0_11 : ∀ i : grid0.Coords, EltTy.bits .f32 = 32 ∨ (Rect.block (s := S802816x1) S4096x1.size (cc0_transform_11 i) (hinb0_11 i)).WholeWords (EltTy.packing .f32)

variable [Facts₀]

def gather_S50000x64_S802816x1_S802816x64_1_0_n_n_0_1_164 : GatherDims S50000x64 S802816x1 S802816x64 where
  offsetDims := [1]
  collapsedSliceDims := [0]
  operandBatchingDims := []
  startIndicesBatchingDims := []
  startIndexMap := [0]
  indexVectorDim := 1
  sliceSizes := ![1, 64]
  wf := gather_S50000x64_S802816x1_S802816x64_1_0_n_n_0_1_164_wf
def gather_S50000_S802816x1_S802816_n_0_n_n_0_1_1 : GatherDims S50000 S802816x1 S802816 where
  offsetDims := []
  collapsedSliceDims := [0]
  operandBatchingDims := []
  startIndicesBatchingDims := []
  startIndexMap := [0]
  indexVectorDim := 1
  sliceSizes := ![1]
  wf := gather_S50000_S802816x1_S802816_n_0_n_n_0_1_1_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x16_S16x256_S4096x256_1_0_0_1_n_n : DotDims S4096x16 S16x256 S4096x256 where
  lhsContracting := [1]
  rhsContracting := [0]
  lhsNonContracting := [0]
  rhsNonContracting := [1]
  lhsBatch := []
  rhsBatch := []
  wf := dot_S4096x16_S16x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_v7) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S16x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S64x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S4096x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x64 : Shape := ⟨2, ![50000, 64]⟩
abbrev S64x128 : Shape := ⟨2, ![64, 128]⟩
abbrev S800000x16 : Shape := ⟨2, ![800000, 16]⟩
abbrev S272x256 : Shape := ⟨2, ![272, 256]⟩
abbrev S256 : Shape := ⟨1, ![256]⟩
abbrev S256x1 : Shape := ⟨2, ![256, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x64 : Shape := ⟨2, ![800000, 64]⟩
abbrev S800000x272 : Shape := ⟨2, ![800000, 272]⟩
abbrev S800000x256 : Shape := ⟨2, ![800000, 256]⟩
abbrev S1x256 : Shape := ⟨2, ![1, 256]⟩
abbrev S1x1 : Shape := ⟨2, ![1, 1]⟩

abbrev nBuf : Space → Nat
  | .hbm => 62
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x128, .f32⟩
  | .hbm, ⟨2, _⟩ => ⟨S800000x16, .f32⟩
  | .hbm, ⟨3, _⟩ => ⟨S272x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S2x800000, .i32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x64, .f32⟩
  | .hbm, ⟨49, _⟩ => ⟨S800000x272, .f32⟩
  | .hbm, ⟨50, _⟩ => ⟨S800000x256, .f32⟩
  | .hbm, ⟨51, _⟩ => ⟨S1x256, .f32⟩
  | .hbm, ⟨52, _⟩ => ⟨S800000x256, .f32⟩
  | .hbm, ⟨53, _⟩ => ⟨S800000x256, .f32⟩
  | .hbm, ⟨54, _⟩ => ⟨S_, .f32⟩
  | .hbm, ⟨55, _⟩ => ⟨S800000x256, .f32⟩
  | .hbm, ⟨56, _⟩ => ⟨S800000x256, .f32⟩
  | .hbm, ⟨57, _⟩ => ⟨S800000x1, .f32⟩
  | .hbm, ⟨58, _⟩ => ⟨S1x1, .f32⟩
  | .hbm, ⟨59, _⟩ => ⟨S800000x1, .f32⟩
  | .hbm, ⟨60, _⟩ => ⟨S800000x1, .f32⟩
  | .hbm, ⟨61, _⟩ => ⟨S800000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x128_S800000x272_d1 : Shape.Concatenates [S800000x64, S800000x64, S800000x16, S800000x128] S800000x272 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  gather_S50000_S800000x1_S800000_n_0_n_n_0_1_1_wf : GatherDims.WF S50000 S800000x1 S800000 [] [0] [] [0] [] 1 ![1]
  gather_S64x128_S800000x1_S800000x128_1_0_n_n_0_1_1128_wf : GatherDims.WF S64x128 S800000x1 S800000x128 [1] [0] [] [0] [] 1 ![1, 128]
  gather_S50000x64_S800000x1_S800000x64_1_0_n_n_0_1_164_wf : GatherDims.WF S50000x64 S800000x1 S800000x64 [1] [0] [] [0] [] 1 ![1, 64]
  dot_S800000x272_S272x256_S800000x256_1_0_0_1_n_n_wf : DotDims.WF S800000x272 S272x256 S800000x256 [1] [0] [0] [1] [] []
  dot_S800000x256_S256x1_S800000x1_1_0_0_1_n_n_wf : DotDims.WF S800000x256 S256x1 S800000x1 [1] [0] [0] [1] [] []

variable [Facts₀]

def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S64x128_S800000x1_S800000x128_1_0_n_n_0_1_1128 : GatherDims S64x128 S800000x1 S800000x128 where
  offsetDims := [1]
  collapsedSliceDims := [0]
  operandBatchingDims := []
  startIndicesBatchingDims := []
  startIndexMap := [0]
  indexVectorDim := 1
  sliceSizes := ![1, 128]
  wf := gather_S64x128_S800000x1_S800000x128_1_0_n_n_0_1_1128_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x272_S272x256_S800000x256_1_0_0_1_n_n : DotDims S800000x272 S272x256 S800000x256 where
  lhsContracting := [1]
  rhsContracting := [0]
  lhsNonContracting := [0]
  rhsNonContracting := [1]
  lhsBatch := []
  rhsBatch := []
  wf := dot_S800000x272_S272x256_S800000x256_1_0_0_1_n_n_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf

class Facts : Prop extends Facts₀ where

variable [Facts]
-- ==== Proof.Spec.lean ====
/-
  The edge scorer as one function of the argument arrays, entry by entry, on the extended reals.

  For edge e the two endpoint words src = edge_index[0, e] and dst = edge_index[1, e] name rows of the node table, and the
  word batch[row of src] names a row of the graph-context table. A word names a row the way an array index does: a
  negative word counts from the end of the axis (the extent is added), and the result is held inside the axis
  (`rowOf`). The first layer contracts the 272-wide row

      [ node_emb[src row] | node_emb[dst row] | edge_attr[e] | global_ctx[ctx row] ]

  against W1; written here as the four partial contractions against the row bands 0–63, 64–127, 128–143 and 144–271 of
  W1, added left to right, then the bias. The second layer contracts the rectified hidden row against the one column
  of W2 and adds its bias.
-/
import Idealize.ShloMosaic.PureOps.Ideal
import Idealize.ShloMosaic.Lib.ValueIdx

noncomputable section

namespace Cert.EdgeMlp

open Idealize.ShloMosaic Idealize.ShloMosaic.ValueIdx
open scoped BigOperators

abbrev T50000x64 : Shape := ⟨2, ![50000, 64]⟩
abbrev T64x128 : Shape := ⟨2, ![64, 128]⟩
abbrev T800000x16 : Shape := ⟨2, ![800000, 16]⟩
abbrev T272x256 : Shape := ⟨2, ![272, 256]⟩
abbrev T256 : Shape := ⟨1, ![256]⟩
abbrev T256x1 : Shape := ⟨2, ![256, 1]⟩
abbrev T1 : Shape := ⟨1, ![1]⟩
abbrev T2x800000 : Shape := ⟨2, ![2, 800000]⟩
abbrev T50000 : Shape := ⟨1, ![50000]⟩
abbrev T800000 : Shape := ⟨1, ![800000]⟩

/-- An index word counted from the end of an axis of extent `n` when negative: the extent is added. -/
def wrapIdx (n w : BitVec 32) : BitVec 32 := Scalar.select (IntOp.cmpi .slt w 0#32) (IntOp.addi w n) w

/-- The row of an axis of extent `N` that an index word names: read signed, held inside the axis. -/
def rowOf (N : Nat) (hN : 0 < N) (w : BitVec 32) : Fin N := ⟨min w.toInt.toNat (N - 1), by omega⟩

/-- The node row of edge `e`'s endpoint `a` (0 the source, 1 the destination). -/
def nodeRow (ei : IVec T2x800000 32) (a : Fin 2) (e : Fin 800000) : Fin 50000 :=
  rowOf 50000 (by decide) (wrapIdx 50000#32 (ei (ix2 a e)))

/-- The graph word of edge `e`: the batch entry of its source row. -/
def graphWord (ei : IVec T2x800000 32) (bt : IVec T50000 32) (e : Fin 800000) : BitVec 32 := bt (ix1 (nodeRow ei 0 e))

/-- The context row of edge `e`. -/
def ctxRow (ei : IVec T2x800000 32) (bt : IVec T50000 32) (e : Fin 800000) : Fin 64 :=
  rowOf 64 (by decide) (wrapIdx 64#32 (graphWord ei bt e))

/-- Hidden unit `j` of edge `e` before the rectifier. -/
def hidden (ne : FVec Ideal T50000x64 .f32) (gc : FVec Ideal T64x128 .f32) (ea : FVec Ideal T800000x16 .f32)
    (W1 : FVec Ideal T272x256 .f32) (b1 : FVec Ideal T256 .f32) (ei : IVec T2x800000 32) (bt : IVec T50000 32)
    (e : Fin 800000) (j : Fin 256) : EReal :=
  ((((∑ k : Fin 64, ne (ix2 (nodeRow ei 0 e) k) * W1 (ix2 (⟨k.val, by omega⟩ : Fin 272) j))
      + ∑ k : Fin 64, ne (ix2 (nodeRow ei 1 e) k) * W1 (ix2 (⟨64 + k.val, by omega⟩ : Fin 272) j))
      + ∑ k : Fin 16, ea (ix2 e k) * W1 (ix2 (⟨128 + k.val, by omega⟩ : Fin 272) j))
      + ∑ k : Fin 128, gc (ix2 (ctxRow ei bt e) k) * W1 (ix2 (⟨144 + k.val, by omega⟩ : Fin 272) j))
    + b1 (ix1 j)

/-- The score of every edge. -/
def score (ne : FVec Ideal T50000x64 .f32) (gc : FVec Ideal T64x128 .f32) (ea : FVec Ideal T800000x16 .f32)
    (W1 : FVec Ideal T272x256 .f32) (b1 : FVec Ideal T256 .f32) (W2 : FVec Ideal T256x1 .f32) (b2 : FVec Ideal T1 .f32)
    (ei : IVec T2x800000 32) (bt : IVec T50000 32) : FVec Ideal T800000 .f32 :=
  fun i => (∑ j : Fin 256, max (hidden ne gc ea W1 b1 ei bt (i 0) j) 0 * W2 (ix2 j (0 : Fin 1))) + b2 (ix1 (0 : Fin 1))

end Cert.EdgeMlp

end
-- ==== Proof.Words.lean ====
/-
  Index words inside their axis.

  A 32-bit word w is inside an axis of extent N (N below 2^31) when, read signed, 0 ≤ w < N. Such a word is not
  counted from the end (`wrapIdx` leaves it alone), names the row w itself (`rowOf`), and passes the two signed
  comparisons 0 ≤ w and w ≤ N − 1 that a filling gather tests before it trusts the index.
-/
import proofs.«408209_j12635793785256_1_alg».proof.Proof.Spec
import Idealize.ShloMosaic.Lib.StableHlo.Predicate

noncomputable section

namespace Cert.EdgeMlp

open Idealize.ShloMosaic Idealize.ShloMosaic.ValueIdx

/-- The word, read signed, lies in [0, N). -/
def InRange (N : Nat) (w : BitVec 32) : Prop := 0 ≤ w.toInt ∧ w.toInt < N

/-- Read signed, a word in [0, N) with N below 2^31 has its top bit clear, so its signed and unsigned readings agree. -/
theorem InRange.toNat_lt_two31 {N : Nat} {w : BitVec 32} (hN : N < 2 ^ 31) (h : InRange N w) : w.toNat < 2 ^ 31 := by
  obtain ⟨h0, h1⟩ := h
  have hw := w.isLt
  rw [BitVec.toInt_eq_toNat_cond] at h0 h1
  split at h0 <;> omega

theorem InRange.toNat_lt {N : Nat} {w : BitVec 32} (hN : N < 2 ^ 31) (h : InRange N w) : w.toNat < N := by
  have h31 := h.toNat_lt_two31 hN
  obtain ⟨h0, h1⟩ := h
  rw [StableHlo.Predicate.toInt_eq_toNat_of_lt h31] at h1
  omega

theorem InRange.toInt_eq {N : Nat} {w : BitVec 32} (hN : N < 2 ^ 31) (h : InRange N w) : w.toInt = w.toNat := by
  exact StableHlo.Predicate.toInt_eq_toNat_of_lt (h.toNat_lt_two31 hN)

/-- A word inside the axis is not counted from the end. -/
theorem wrapIdx_of_inRange {N : Nat} {w : BitVec 32} (n : BitVec 32) (h : InRange N w) : wrapIdx n w = w := by
  unfold wrapIdx
  have hc : IntOp.cmpi .slt w 0#32 = 0#1 := by
    apply eq_zero_of_ne_one
    intro h1
    unfold IntOp.cmpi at h1
    rw [StableHlo.Predicate.ofBool_eq_one_iff] at h1
    simp only [BitVec.slt, decide_eq_true_eq] at h1
    have : (0#32 : BitVec 32).toInt = 0 := by decide
    have := h.1
    omega
  rw [hc]
  exact select_zero _ _

/-- A word inside the axis names the row of its own value. -/
theorem rowOf_of_inRange {N : Nat} (hN0 : 0 < N) (hN : N < 2 ^ 31) {w : BitVec 32} (h : InRange N w) :
    (rowOf N hN0 w).val = w.toNat := by
  have hlt := h.toNat_lt hN
  have he := h.toInt_eq hN
  show min w.toInt.toNat (N - 1) = w.toNat
  rw [he, Int.toNat_natCast]
  omega

/-- It passes the lower test of a filling gather … -/
theorem sge_zero_of_inRange {N : Nat} {w : BitVec 32} (h : InRange N w) : IntOp.cmpi .sge w 0#32 = 1#1 := by
  unfold IntOp.cmpi
  rw [StableHlo.Predicate.ofBool_eq_one_iff]
  simp only [BitVec.sle, decide_eq_true_eq]
  have : (0#32 : BitVec 32).toInt = 0 := by decide
  have := h.1
  omega

/-- … and the upper one, against the last row N − 1. -/
theorem sle_last_of_inRange {N : Nat} (hN0 : 0 < N) (hN : N < 2 ^ 31) {w : BitVec 32} (h : InRange N w) :
    IntOp.cmpi .sle w (BitVec.ofNat 32 (N - 1)) = 1#1 := by
  have h31 := h.toNat_lt_two31 hN
  have hlt := h.toNat_lt hN
  rw [StableHlo.Predicate.sle_iff_toNat h31 (by rw [BitVec.toNat_ofNat]; omega)]
  rw [BitVec.toNat_ofNat, Nat.mod_eq_of_lt (by omega)]
  omega

/-- The word of a row below 2^31, compared for equality with a word inside the axis: equal exactly at that word's row. -/
theorem ofNat_eq_iff_of_inRange {N : Nat} (hN : N < 2 ^ 31) {w : BitVec 32} (h : InRange N w) (g : Fin N) :
    BitVec.ofNat 32 g.val = w ↔ g.val = w.toNat := by
  have hlt := h.toNat_lt hN
  constructor
  · intro e
    rw [← e, BitVec.toNat_ofNat, Nat.mod_eq_of_lt (by have := g.isLt; omega)]
  · intro e
    apply BitVec.eq_of_toNat_eq
    rw [BitVec.toNat_ofNat, Nat.mod_eq_of_lt (by have := g.isLt; omega)]
    exact e

end Cert.EdgeMlp

end
-- ==== Proof.SumLaws.lean ====
/-
  Two laws of finite sums the edge MLP rests on, over any commutative monoid (the extended reals in use).

  * The first layer contracts a row of width 272 that is the concatenation of four pieces of widths 64, 64, 16 and 128.
    A sum over the 272 positions is the sum of the four sums over the pieces, associated to the left.
  * A row that is 1 at one position and 0 elsewhere, multiplied into a family and summed, selects that position's term:
    this is how a product with a one-hot row reads a table's row. It needs only 0 · x = 0 and 1 · x = x, which hold on
    the extended reals at the infinities too, so no finiteness is asked.
-/
import Mathlib.Algebra.BigOperators.Fin
import Mathlib.Data.EReal.Basic

namespace Cert.EdgeMlp

open scoped BigOperators

/-- A sum over 272 positions, cut at 64, 128 and 144. -/
theorem sum_cut272 {β : Type} [AddCommMonoid β] (f : Fin 272 → β) :
    ∑ k : Fin 272, f k
      = ((∑ k : Fin 64, f ⟨k.val, by omega⟩ + ∑ k : Fin 64, f ⟨64 + k.val, by omega⟩)
          + ∑ k : Fin 16, f ⟨128 + k.val, by omega⟩) + ∑ k : Fin 128, f ⟨144 + k.val, by omega⟩ := by
  show ∑ k : Fin (((64 + 64) + 16) + 128), f k = _
  rw [Fin.sum_univ_add, Fin.sum_univ_add, Fin.sum_univ_add]
  rfl

/-- A one-hot row times a family, summed, is the family at the hot position. -/
theorem sum_onehot_mul {n : Nat} (v : Fin n) (h : Fin n → EReal) (X : Fin n → EReal)
    (hh : ∀ g, h g = if g = v then 1 else 0) : ∑ g : Fin n, h g * X g = X v := by
  simp only [hh, ite_mul, one_mul, zero_mul, Finset.sum_ite_eq', Finset.mem_univ, if_true]

end Cert.EdgeMlp
-- ==== Proof.RegionSpec.lean ====
/-
  What one launch of the edge kernel leaves in its output array, as a function of the eleven arrays it is launched on,
  row by row. Row r of the output depends on row r of the four row-blocked operands (the two gathered endpoint
  embeddings, the padded edge attributes, the column of graph words) and on the seven small operands whole.

  The graph word enters through a one-hot row: position g of the row is 1 when g, as a word, equals the graph word,
  else 0; its product with the [64, 256] context table is that table's row at the graph word, or the zero row when no
  position matches.
-/
import proofs.«408209_j12635793785256_1_alg».proof.Proof.Spec

noncomputable section

namespace Cert.EdgeMlp

open Idealize.ShloMosaic Idealize.ShloMosaic.ValueIdx
open scoped BigOperators

abbrev T802816x64 : Shape := ⟨2, ![802816, 64]⟩
abbrev T802816x16 : Shape := ⟨2, ![802816, 16]⟩
abbrev T802816x1 : Shape := ⟨2, ![802816, 1]⟩
abbrev T64x256 : Shape := ⟨2, ![64, 256]⟩
abbrev T16x256 : Shape := ⟨2, ![16, 256]⟩
abbrev T1x256 : Shape := ⟨2, ![1, 256]⟩
abbrev T1x1 : Shape := ⟨2, ![1, 1]⟩

/-- Position g of the one-hot row of a graph word. -/
def hot (g : Fin 64) (w : BitVec 32) : EReal := if BitVec.ofNat 32 g.val = w then 1 else 0

/-- Hidden unit j of row r before the rectifier. -/
def rowHidden (A0 A1 : FVec Ideal T802816x64 .f32) (A2 : FVec Ideal T802816x16 .f32) (A3 : IVec T802816x1 32)
    (A4 A5 : FVec Ideal T64x256 .f32) (A6 : FVec Ideal T16x256 .f32) (A7 : FVec Ideal T64x256 .f32)
    (A8 : FVec Ideal T1x256 .f32) (r : Fin 802816) (j : Fin 256) : EReal :=
  ((((∑ k : Fin 64, A0 (ix2 r k) * A4 (ix2 k j)) + ∑ k : Fin 64, A1 (ix2 r k) * A5 (ix2 k j))
      + ∑ k : Fin 16, A2 (ix2 r k) * A6 (ix2 k j))
      + ∑ g : Fin 64, hot g (A3 (ix2 r (0 : Fin 1))) * A7 (ix2 g j))
    + A8 (ix2 (0 : Fin 1) j)

/-- The output array of the launch. -/
def rowScore (A0 A1 : FVec Ideal T802816x64 .f32) (A2 : FVec Ideal T802816x16 .f32) (A3 : IVec T802816x1 32)
    (A4 A5 : FVec Ideal T64x256 .f32) (A6 : FVec Ideal T16x256 .f32) (A7 : FVec Ideal T64x256 .f32)
    (A8 : FVec Ideal T1x256 .f32) (A9 : FVec Ideal T256x1 .f32) (A10 : FVec Ideal T1x1 .f32) :
    FVec Ideal T802816x1 .f32 :=
  fun i => (∑ j : Fin 256, max (rowHidden A0 A1 A2 A3 A4 A5 A6 A7 A8 (i 0) j) 0 * A9 (ix2 j (0 : Fin 1)))
    + A10 (ix2 (0 : Fin 1) (0 : Fin 1))

end Cert.EdgeMlp

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.RegionValue.lean ====
/-
  The launch's output array after the run is `rowScore` of the eleven arrays the region finds.
-/
import proofs.«408209_j12635793785256_1_alg».proof.Proof.Gen.KernelIdeal.Frame
import proofs.«408209_j12635793785256_1_alg».proof.Proof.RegionSpec
import proofs.«408209_j12635793785256_1_alg».proof.Proof.LibDotSum
import Idealize.ShloMosaic.Lib.Pipeline.Value
import Idealize.ShloMosaic.Lib.ValueLayout
import Idealize.ShloMosaic.Lib.ValueIdx
import Idealize.ShloMosaic.PureOps.Ideal.Laws
import Idealize.ShloMosaic.Lib.StableHlo.Predicate

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.EdgeMlp
open scoped BigOperators

variable (m : (ℓ : Loc nD τ sig) → Buf (Elt Ideal) ℓ)

/-- Position g of the one-hot row built from the graph word of block row p. -/
theorem onehot_entry (x3 : Vec Ideal S4096x1 .i32) (p : Fin 4096) (g : Fin 64) :
    (k0_pay10 (F := Ideal) x3) (ix2 p g) = hot g (x3 (ix2 p (0 : Fin 1))) := by
  unfold k0_pay10
  show FloatOps.sitofp (F := Ideal) .f32 ((IntOp.cmpi .eq (iota .tc S4096x64 32 [1] iota_S4096x64_d1_w32 (ix2 p g))
      (broadcastTo S4096x64 (shapeCast S4096x1 x3 shapeCasts_S4096x1_S4096x1) broadcasts_S4096x1_S4096x64 (ix2 p g))).setWidth 32) = _
  rw [iota_single_apply, shapeCast_self]
  rw [broadcastTo_apply x3 broadcasts_S4096x1_S4096x64 (ix2 p g) (ix2 p (0 : Fin 1)) (fun a => by
    match a with
    | ⟨0, _⟩ => rfl
    | ⟨1, _⟩ => rfl)]
  show (((BitVec.setWidth 32 (IntOp.cmpi .eq (BitVec.ofNat 32 g.val) (x3 (ix2 p (0 : Fin 1))))).toInt : ℝ) : EReal) = _
  unfold hot
  by_cases h : BitVec.ofNat 32 g.val = x3 (ix2 p (0 : Fin 1))
  · rw [if_pos h, StableHlo.Predicate.cmpi_eq_iff.mpr h]
    have e : (BitVec.setWidth 32 1#1).toInt = 1 := by decide
    rw [e]; norm_num
  · rw [if_neg h, eq_zero_of_ne_one (fun e => h (StableHlo.Predicate.cmpi_eq_iff.mp e))]
    have e : (BitVec.setWidth 32 0#1).toInt = 0 := by decide
    rw [e]; norm_num

/-! The loaded blocks pass through a same-shape cast and a change of float format: at the extended reals both are the
    identity. -/

theorem pay2_apply (x : Vec Ideal S4096x64 .f32) (i : S4096x64.Idx) : k0_pay2 (F := Ideal) x i = x i := by
  unfold k0_pay2
  show shapeCast S4096x64 x shapeCasts_S4096x64_S4096x64 i = x i
  rw [shapeCast_self]
theorem pay3_apply (x : Vec Ideal S4096x16 .f32) (i : S4096x16.Idx) : k0_pay3 (F := Ideal) x i = x i := by
  unfold k0_pay3
  show shapeCast S4096x16 x shapeCasts_S4096x16_S4096x16 i = x i
  rw [shapeCast_self]
theorem pay4_apply (x : Vec Ideal S64x256 .f32) (i : S64x256.Idx) : k0_pay4 (F := Ideal) x i = x i := by
  unfold k0_pay4
  show shapeCast S64x256 x shapeCasts_S64x256_S64x256 i = x i
  rw [shapeCast_self]
theorem pay5_apply (x : Vec Ideal S16x256 .f32) (i : S16x256.Idx) : k0_pay5 (F := Ideal) x i = x i := by
  unfold k0_pay5
  show shapeCast S16x256 x shapeCasts_S16x256_S16x256 i = x i
  rw [shapeCast_self]
theorem pay6_apply (x : Vec Ideal S64x256 .f32) (i : S64x256.Idx) : k0_pay6 (F := Ideal) x i = x i := by
  unfold k0_pay6
  show shapeCast S64x256 x shapeCasts_S64x256_S64x256 i = x i
  rw [shapeCast_self]
theorem pay7_apply (x : Vec Ideal S1x256 .f32) (i : S1x256.Idx) : k0_pay7 (F := Ideal) x i = x i := by
  unfold k0_pay7
  show shapeCast S1x256 x shapeCasts_S1x256_S1x256 i = x i
  rw [shapeCast_self]
theorem pay8_apply (x : Vec Ideal S256x1 .f32) (i : S256x1.Idx) : k0_pay8 (F := Ideal) x i = x i := rfl
theorem pay9_apply (x : Vec Ideal S1x1 .f32) (i : S1x1.Idx) : k0_pay9 (F := Ideal) x i = x i := by
  unfold k0_pay9
  show shapeCast S1x1 x shapeCasts_S1x1_S1x1 i = x i
  rw [shapeCast_self]

/-- The first partial product of the first layer at (p, j): row p of the source-endpoint block against column j of
    its band of the weights. -/
theorem pay11_apply (x0 : Vec Ideal S4096x64 .f32) (x4 : Vec Ideal S64x256 .f32) (p : Fin 4096) (j : Fin 256) :
    k0_pay11 (F := Ideal) x0 x4 (ix2 p j) = ∑ k : Fin 64, x0 (ix2 p k) * x4 (ix2 k j) := by
  unfold k0_pay11
  rw [Cert.Lib.matmul_rc_apply dot_S4096x64_S64x256_S4096x256_1_0_0_1_n_n rfl rfl rfl rfl rfl rfl]
  refine Finset.sum_congr rfl fun k _ => ?_
  show shapeCast S4096x64 x0 shapeCasts_S4096x64_S4096x64 (ix2 p k) * shapeCast S64x256 x4 shapeCasts_S64x256_S64x256 (ix2 k j) = _
  rw [shapeCast_self, shapeCast_self]
/-- Hidden unit j of block row p before the rectifier, from the blocks. -/
def blkHidden (x0 x1 : Vec Ideal S4096x64 .f32) (x2 : Vec Ideal S4096x16 .f32) (x3 : Vec Ideal S4096x1 .i32)
    (x4 x5 : Vec Ideal S64x256 .f32) (x6 : Vec Ideal S16x256 .f32) (x7 : Vec Ideal S64x256 .f32)
    (x8 : Vec Ideal S1x256 .f32) (p : Fin 4096) (j : Fin 256) : EReal :=
  ((((∑ k : Fin 64, x0 (ix2 p k) * x4 (ix2 k j)) + ∑ k : Fin 64, x1 (ix2 p k) * x5 (ix2 k j))
      + ∑ k : Fin 16, x2 (ix2 p k) * x6 (ix2 k j))
      + ∑ g : Fin 64, hot g (x3 (ix2 p (0 : Fin 1))) * x7 (ix2 g j))
    + x8 (ix2 (0 : Fin 1) j)

/-- The body's result at block row p: the rectified hidden row against the one output column, plus the bias. -/
theorem payload_row (x0 x1 : Vec Ideal S4096x64 .f32) (x2 : Vec Ideal S4096x16 .f32) (x3 : Vec Ideal S4096x1 .i32)
    (x4 x5 : Vec Ideal S64x256 .f32) (x6 : Vec Ideal S16x256 .f32) (x7 : Vec Ideal S64x256 .f32)
    (x8 : Vec Ideal S1x256 .f32) (x9 : Vec Ideal S256x1 .f32) (x10 : Vec Ideal S1x1 .f32) (p : Fin 4096) :
    k0_pay1 (F := Ideal) (k0_pay2 x1) (k0_pay3 x2) (k0_pay4 x5) (k0_pay5 x6) (k0_pay6 x7) (k0_pay7 x8) (k0_pay8 x9)
        (k0_pay9 x10) (k0_pay10 x3) (k0_pay11 x0 x4) (ix2 p (0 : Fin 1))
      = (∑ j : Fin 256, max (blkHidden x0 x1 x2 x3 x4 x5 x6 x7 x8 p j) 0 * x9 (ix2 j (0 : Fin 1)))
        + x10 (ix2 (0 : Fin 1) (0 : Fin 1)) := by
  unfold k0_pay1
  rw [addf_apply, Cert.Lib.matmul_rc_apply dot_S4096x256_S256x1_S4096x1_1_0_0_1_n_n rfl rfl rfl rfl rfl rfl]
  refine congrArg₂ (· + ·) (Finset.sum_congr rfl fun j _ => ?_) ?_
  · rw [truncf_apply, maximumf_apply, broadcast_apply, addf_apply, addf_apply, addf_apply, addf_apply, pay11_apply,
      Cert.Lib.matmul_rc_apply dot_S4096x64_S64x256_S4096x256_1_0_0_1_n_n rfl rfl rfl rfl rfl rfl,
      Cert.Lib.matmul_rc_apply dot_S4096x16_S16x256_S4096x256_1_0_0_1_n_n rfl rfl rfl rfl rfl rfl,
      Cert.Lib.matmul_rc_apply dot_S4096x64_S64x256_S4096x256_1_0_0_1_n_n rfl rfl rfl rfl rfl rfl,
      broadcastTo_1b_ab_apply, pay8_apply]
    simp only [pay2_apply, pay3_apply, pay4_apply, pay5_apply, pay6_apply, pay7_apply, onehot_entry]
    show max _ (Ideal.ofBits .f32 0x00000000#32) * _ = _
    rw [Ideal.ofBits_zero_f32]
    rfl
  · rw [broadcastTo_1b_ab_apply, pay9_apply]

/-! ## From the blocks to the arrays -/

/-- The body stores through the whole-block rectangle: its offsets are zero on both axes. -/
theorem zero_offsets : (![0, 0] : Fin 2 → Nat) = fun _ => 0 := funext fun a => by fin_cases a <;> rfl

/-- The four row-blocked operands and the output move with the grid point: at point t their block index is (t, 0).
    There are 196 points. -/
theorem index_rows : ∀ t : Fin cfg0.N, t.val < 196
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_11.index t (0 : Fin 2) = t.val ∧ win0_11.index t (1 : Fin 2) = 0 :=
  (by decide +kernel : ∀ t : Fin grid0.N, _)

/-- The seven small operands are one block each: their block index is (0, 0) at every point. -/
theorem index_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! Reading a block of an array. A block's entry sits in its array, on each axis, at the block index times the block's
    extent plus the entry's own coordinate. -/

/-- Row p of window 0's block at point t (the source-endpoint rows) is row 4096 t + p of its array. -/
theorem read0 (t : Fin cfg0.N) (A : FVec Ideal T802816x64 .f32) (p : Fin 4096) (k : Fin 64) (r : Fin 802816)
    (hr : r.val = t.val * 4096 + p.val) :
    (((cfg0.win 0).blk t).view.read (Elt Ideal) A : Vec Ideal S4096x64 .f32) (ix2 p k) = A (ix2 r k) := by
  obtain ⟨-, e0, e1, -, -, -, -, -, -, -, -⟩ := index_rows t
  show A (((cfg0.win 0).blk t).view.emb (ix2 p k)) = A (ix2 r k)
  have h : ((cfg0.win 0).blk t).view.emb (ix2 p k) = ix2 r k := by
    funext a; apply Fin.ext
    match a with
    | ⟨0, _⟩ => show win0_0.index t (0 : Fin 2) * 4096 + 1 * p.val = r.val; omega
    | ⟨1, _⟩ => show win0_0.index t (1 : Fin 2) * 64 + 1 * k.val = k.val; omega
  rw [h]

/-- Row p of window 1's block at point t (the destination-endpoint rows) is row 4096 t + p of its array. -/
theorem read1 (t : Fin cfg0.N) (A : FVec Ideal T802816x64 .f32) (p : Fin 4096) (k : Fin 64) (r : Fin 802816)
    (hr : r.val = t.val * 4096 + p.val) :
    (((cfg0.win 1).blk t).view.read (Elt Ideal) A : Vec Ideal S4096x64 .f32) (ix2 p k) = A (ix2 r k) := by
  obtain ⟨-, -, -, e0, e1, -, -, -, -, -, -⟩ := index_rows t
  show A (((cfg0.win 1).blk t).view.emb (ix2 p k)) = A (ix2 r k)
  have h : ((cfg0.win 1).blk t).view.emb (ix2 p k) = ix2 r k := by
    funext a; apply Fin.ext
    match a with
    | ⟨0, _⟩ => show win0_1.index t (0 : Fin 2) * 4096 + 1 * p.val = r.val; omega
    | ⟨1, _⟩ => show win0_1.index t (1 : Fin 2) * 64 + 1 * k.val = k.val; omega
  rw [h]

/-- Row p of window 2's block at point t (the edge-attribute rows) is row 4096 t + p of its array. -/
theorem read2 (t : Fin cfg0.N) (A : FVec Ideal T802816x16 .f32) (p : Fin 4096) (k : Fin 16) (r : Fin 802816)
    (hr : r.val = t.val * 4096 + p.val) :
    (((cfg0.win 2).blk t).view.read (Elt Ideal) A : Vec Ideal S4096x16 .f32) (ix2 p k) = A (ix2 r k) := by
  obtain ⟨-, -, -, -, -, e0, e1, -, -, -, -⟩ := index_rows t
  show A (((cfg0.win 2).blk t).view.emb (ix2 p k)) = A (ix2 r k)
  have h : ((cfg0.win 2).blk t).view.emb (ix2 p k) = ix2 r k := by
    funext a; apply Fin.ext
    match a with
    | ⟨0, _⟩ => show win0_2.index t (0 : Fin 2) * 4096 + 1 * p.val = r.val; omega
    | ⟨1, _⟩ => show win0_2.index t (1 : Fin 2) * 16 + 1 * k.val = k.val; omega
  rw [h]

/-- Row p of window 3's block at point t (the column of graph words) is row 4096 t + p of its array. -/
theorem read3 (t : Fin cfg0.N) (A : IVec T802816x1 32) (p : Fin 4096) (k : Fin 1) (r : Fin 802816)
    (hr : r.val = t.val * 4096 + p.val) :
    (((cfg0.win 3).blk t).view.read (Elt Ideal) A : Vec Ideal S4096x1 .i32) (ix2 p k) = A (ix2 r k) := by
  obtain ⟨-, -, -, -, -, -, -, e0, e1, -, -⟩ := index_rows t
  show A (((cfg0.win 3).blk t).view.emb (ix2 p k)) = A (ix2 r k)
  have h : ((cfg0.win 3).blk t).view.emb (ix2 p k) = ix2 r k := by
    funext a; apply Fin.ext
    match a with
    | ⟨0, _⟩ => show win0_3.index t (0 : Fin 2) * 4096 + 1 * p.val = r.val; omega
    | ⟨1, _⟩ => show win0_3.index t (1 : Fin 2) * 1 + 1 * k.val = k.val; omega
  rw [h]

/-- Window 4's block is its whole [64, 256] array at every point. -/
theorem read4 (t : Fin cfg0.N) (A : FVec Ideal T64x256 .f32) (a : Fin 64) (b : Fin 256) :
    (((cfg0.win 4).blk t).view.read (Elt Ideal) A : Vec Ideal S64x256 .f32) (ix2 a b) = A (ix2 a b) := by
  obtain ⟨e0, e1, -, -, -, -, -, -, -, -, -, -, -, -⟩ := index_whole t
  show A (((cfg0.win 4).blk t).view.emb (ix2 a b)) = A (ix2 a b)
  have h : ((cfg0.win 4).blk t).view.emb (ix2 a b) = ix2 a b := by
    funext d; apply Fin.ext
    match d with
    | ⟨0, _⟩ => show win0_4.index t (0 : Fin 2) * 64 + 1 * a.val = a.val; omega
    | ⟨1, _⟩ => show win0_4.index t (1 : Fin 2) * 256 + 1 * b.val = b.val; omega
  rw [h]

/-- Window 5's block is its whole [64, 256] array at every point. -/
theorem read5 (t : Fin cfg0.N) (A : FVec Ideal T64x256 .f32) (a : Fin 64) (b : Fin 256) :
    (((cfg0.win 5).blk t).view.read (Elt Ideal) A : Vec Ideal S64x256 .f32) (ix2 a b) = A (ix2 a b) := by
  obtain ⟨-, -, e0, e1, -, -, -, -, -, -, -, -, -, -⟩ := index_whole t
  show A (((cfg0.win 5).blk t).view.emb (ix2 a b)) = A (ix2 a b)
  have h : ((cfg0.win 5).blk t).view.emb (ix2 a b) = ix2 a b := by
    funext d; apply Fin.ext
    match d with
    | ⟨0, _⟩ => show win0_5.index t (0 : Fin 2) * 64 + 1 * a.val = a.val; omega
    | ⟨1, _⟩ => show win0_5.index t (1 : Fin 2) * 256 + 1 * b.val = b.val; omega
  rw [h]

/-- Window 6's block is its whole [16, 256] array at every point. -/
theorem read6 (t : Fin cfg0.N) (A : FVec Ideal T16x256 .f32) (a : Fin 16) (b : Fin 256) :
    (((cfg0.win 6).blk t).view.read (Elt Ideal) A : Vec Ideal S16x256 .f32) (ix2 a b) = A (ix2 a b) := by
  obtain ⟨-, -, -, -, e0, e1, -, -, -, -, -, -, -, -⟩ := index_whole t
  show A (((cfg0.win 6).blk t).view.emb (ix2 a b)) = A (ix2 a b)
  have h : ((cfg0.win 6).blk t).view.emb (ix2 a b) = ix2 a b := by
    funext d; apply Fin.ext
    match d with
    | ⟨0, _⟩ => show win0_6.index t (0 : Fin 2) * 16 + 1 * a.val = a.val; omega
    | ⟨1, _⟩ => show win0_6.index t (1 : Fin 2) * 256 + 1 * b.val = b.val; omega
  rw [h]

/-- Window 7's block is its whole [64, 256] array at every point. -/
theorem read7 (t : Fin cfg0.N) (A : FVec Ideal T64x256 .f32) (a : Fin 64) (b : Fin 256) :
    (((cfg0.win 7).blk t).view.read (Elt Ideal) A : Vec Ideal S64x256 .f32) (ix2 a b) = A (ix2 a b) := by
  obtain ⟨-, -, -, -, -, -, e0, e1, -, -, -, -, -, -⟩ := index_whole t
  show A (((cfg0.win 7).blk t).view.emb (ix2 a b)) = A (ix2 a b)
  have h : ((cfg0.win 7).blk t).view.emb (ix2 a b) = ix2 a b := by
    funext d; apply Fin.ext
    match d with
    | ⟨0, _⟩ => show win0_7.index t (0 : Fin 2) * 64 + 1 * a.val = a.val; omega
    | ⟨1, _⟩ => show win0_7.index t (1 : Fin 2) * 256 + 1 * b.val = b.val; omega
  rw [h]

/-- Window 8's block is its whole [1, 256] array at every point. -/
theorem read8 (t : Fin cfg0.N) (A : FVec Ideal T1x256 .f32) (a : Fin 1) (b : Fin 256) :
    (((cfg0.win 8).blk t).view.read (Elt Ideal) A : Vec Ideal S1x256 .f32) (ix2 a b) = A (ix2 a b) := by
  obtain ⟨-, -, -, -, -, -, -, -, e0, e1, -, -, -, -⟩ := index_whole t
  show A (((cfg0.win 8).blk t).view.emb (ix2 a b)) = A (ix2 a b)
  have h : ((cfg0.win 8).blk t).view.emb (ix2 a b) = ix2 a b := by
    funext d; apply Fin.ext
    match d with
    | ⟨0, _⟩ => show win0_8.index t (0 : Fin 2) * 1 + 1 * a.val = a.val; omega
    | ⟨1, _⟩ => show win0_8.index t (1 : Fin 2) * 256 + 1 * b.val = b.val; omega
  rw [h]

/-- Window 9's block is its whole [256, 1] array at every point. -/
theorem read9 (t : Fin cfg0.N) (A : FVec Ideal T256x1 .f32) (a : Fin 256) (b : Fin 1) :
    (((cfg0.win 9).blk t).view.read (Elt Ideal) A : Vec Ideal S256x1 .f32) (ix2 a b) = A (ix2 a b) := by
  obtain ⟨-, -, -, -, -, -, -, -, -, -, e0, e1, -, -⟩ := index_whole t
  show A (((cfg0.win 9).blk t).view.emb (ix2 a b)) = A (ix2 a b)
  have h : ((cfg0.win 9).blk t).view.emb (ix2 a b) = ix2 a b := by
    funext d; apply Fin.ext
    match d with
    | ⟨0, _⟩ => show win0_9.index t (0 : Fin 2) * 256 + 1 * a.val = a.val; omega
    | ⟨1, _⟩ => show win0_9.index t (1 : Fin 2) * 1 + 1 * b.val = b.val; omega
  rw [h]

/-- Window 10's block is its whole [1, 1] array at every point. -/
theorem read10 (t : Fin cfg0.N) (A : FVec Ideal T1x1 .f32) (a : Fin 1) (b : Fin 1) :
    (((cfg0.win 10).blk t).view.read (Elt Ideal) A : Vec Ideal S1x1 .f32) (ix2 a b) = A (ix2 a b) := by
  obtain ⟨-, -, -, -, -, -, -, -, -, -, -, -, e0, e1⟩ := index_whole t
  show A (((cfg0.win 10).blk t).view.emb (ix2 a b)) = A (ix2 a b)
  have h : ((cfg0.win 10).blk t).view.emb (ix2 a b) = ix2 a b := by
    funext d; apply Fin.ext
    match d with
    | ⟨0, _⟩ => show win0_10.index t (0 : Fin 2) * 1 + 1 * a.val = a.val; omega
    | ⟨1, _⟩ => show win0_10.index t (1 : Fin 2) * 1 + 1 * b.val = b.val; omega
  rw [h]

/-! ## What one grid point leaves, row by row -/

/-- The output block the body leaves, at block row p, from the input blocks. -/
theorem out_row (x0 x1 : Vec Ideal S4096x64 .f32) (x2 : Vec Ideal S4096x16 .f32) (x3 : Vec Ideal S4096x1 .i32)
    (x4 x5 : Vec Ideal S64x256 .f32) (x6 : Vec Ideal S16x256 .f32) (x7 : Vec Ideal S64x256 .f32)
    (x8 : Vec Ideal S1x256 .f32) (x9 : Vec Ideal S256x1 .f32) (x10 : Vec Ideal S1x1 .f32) (p : Fin 4096) :
    out0_11 (F := Ideal) x0 x1 x2 x3 x4 x5 x6 x7 x8 x9 x10 (ix2 p (0 : Fin 1))
      = (∑ j : Fin 256, max (blkHidden x0 x1 x2 x3 x4 x5 x6 x7 x8 p j) 0 * x9 (ix2 j (0 : Fin 1)))
        + x10 (ix2 (0 : Fin 1) (0 : Fin 1)) := by
  unfold out0_11
  rw [View.canon_unit_zero zero_offsets]
  simp only [View.ld_unit_zero (S := S4096x64) zero_offsets, View.ld_unit_zero (S := S4096x16) zero_offsets,
    View.ld_unit_zero (S := S4096x1) zero_offsets, View.ld_unit_zero (S := S64x256) zero_offsets,
    View.ld_unit_zero (S := S16x256) zero_offsets, View.ld_unit_zero (S := S1x256) zero_offsets,
    View.ld_unit_zero (S := S256x1) zero_offsets, View.ld_unit_zero (S := S1x1) zero_offsets]
  exact payload_row x0 x1 x2 x3 x4 x5 x6 x7 x8 x9 x10 p

/-- When block row p of the four row-blocked operands is row r of their arrays and the small operands are their arrays,
    the output block at row p is the launch's output at row r. -/
theorem out_row_of_arrays (x0 x1 : Vec Ideal S4096x64 .f32) (x2 : Vec Ideal S4096x16 .f32) (x3 : Vec Ideal S4096x1 .i32)
    (x4 x5 : Vec Ideal S64x256 .f32) (x6 : Vec Ideal S16x256 .f32) (x7 : Vec Ideal S64x256 .f32)
    (x8 : Vec Ideal S1x256 .f32) (x9 : Vec Ideal S256x1 .f32) (x10 : Vec Ideal S1x1 .f32)
    (A0 A1 : FVec Ideal T802816x64 .f32) (A2 : FVec Ideal T802816x16 .f32) (A3 : IVec T802816x1 32)
    (A4 A5 : FVec Ideal T64x256 .f32) (A6 : FVec Ideal T16x256 .f32) (A7 : FVec Ideal T64x256 .f32)
    (A8 : FVec Ideal T1x256 .f32) (A9 : FVec Ideal T256x1 .f32) (A10 : FVec Ideal T1x1 .f32) (p : Fin 4096) (r : Fin 802816)
    (h0 : ∀ k, x0 (ix2 p k) = A0 (ix2 r k)) (h1 : ∀ k, x1 (ix2 p k) = A1 (ix2 r k))
    (h2 : ∀ k, x2 (ix2 p k) = A2 (ix2 r k)) (h3 : x3 (ix2 p (0 : Fin 1)) = A3 (ix2 r (0 : Fin 1)))
    (h4 : ∀ a b, x4 (ix2 a b) = A4 (ix2 a b)) (h5 : ∀ a b, x5 (ix2 a b) = A5 (ix2 a b))
    (h6 : ∀ a b, x6 (ix2 a b) = A6 (ix2 a b)) (h7 : ∀ a b, x7 (ix2 a b) = A7 (ix2 a b))
    (h8 : ∀ a b, x8 (ix2 a b) = A8 (ix2 a b)) (h9 : ∀ a b, x9 (ix2 a b) = A9 (ix2 a b))
    (h10 : ∀ a b, x10 (ix2 a b) = A10 (ix2 a b)) :
    out0_11 (F := Ideal) x0 x1 x2 x3 x4 x5 x6 x7 x8 x9 x10 (ix2 p (0 : Fin 1))
      = rowScore A0 A1 A2 A3 A4 A5 A6 A7 A8 A9 A10 (ix2 r (0 : Fin 1)) := by
  rw [out_row]
  unfold blkHidden
  simp only [h0, h1, h2, h3, h4, h5, h6, h7, h8, h9, h10]
  rfl

/-- WHAT POINT t WRITES BACK: the rows 4096 t … 4096 t + 4095 of the launch's output, for any contents of the eleven
    arrays. -/
theorem block_score (t : Fin cfg0.N) (A0 A1 : FVec Ideal T802816x64 .f32) (A2 : FVec Ideal T802816x16 .f32) (A3 : IVec T802816x1 32)
    (A4 A5 : FVec Ideal T64x256 .f32) (A6 : FVec Ideal T16x256 .f32) (A7 : FVec Ideal T64x256 .f32)
    (A8 : FVec Ideal T1x256 .f32) (A9 : FVec Ideal T256x1 .f32) (A10 : FVec Ideal T1x1 .f32) :
    (cfg0.win 11).cut (grid0.coords t)
      (out0_11 (F := Ideal) (((cfg0.win 0).blk t).view.read (Elt Ideal) A0)
        (((cfg0.win 1).blk t).view.read (Elt Ideal) A1)
        (((cfg0.win 2).blk t).view.read (Elt Ideal) A2)
        (((cfg0.win 3).blk t).view.read (Elt Ideal) A3)
        (((cfg0.win 4).blk t).view.read (Elt Ideal) A4)
        (((cfg0.win 5).blk t).view.read (Elt Ideal) A5)
        (((cfg0.win 6).blk t).view.read (Elt Ideal) A6)
        (((cfg0.win 7).blk t).view.read (Elt Ideal) A7)
        (((cfg0.win 8).blk t).view.read (Elt Ideal) A8)
        (((cfg0.win 9).blk t).view.read (Elt Ideal) A9)
        (((cfg0.win 10).blk t).view.read (Elt Ideal) A10))
      = ((cfg0.win 11).blk t).view.read (Elt Ideal) (rowScore A0 A1 A2 A3 A4 A5 A6 A7 A8 A9 A10) := by
  funext y
  obtain ⟨p, q, rfl⟩ : ∃ (p : Fin 4096) (q : Fin 1), y = ix2 p q := ⟨y 0, y 1, eq_ix2 y⟩
  obtain rfl : q = 0 := Subsingleton.elim _ _
  obtain ⟨hN, -, -, -, -, -, -, -, -, e0, e1⟩ := index_rows t
  have hr : t.val * 4096 + p.val < 802816 := by omega
  have hemb : ((cfg0.win 11).blk t).view.emb (ix2 p (0 : Fin 1)) = ix2 (⟨t.val * 4096 + p.val, hr⟩ : Fin 802816) (0 : Fin 1) := by
    funext a; apply Fin.ext
    match a with
    | ⟨0, _⟩ => show win0_11.index t (0 : Fin 2) * 4096 + 1 * p.val = t.val * 4096 + p.val; omega
    | ⟨1, _⟩ => show win0_11.index t (1 : Fin 2) * 1 + 1 * 0 = 0; omega
  show out0_11 (F := Ideal) (((cfg0.win 0).blk t).view.read (Elt Ideal) A0)
        (((cfg0.win 1).blk t).view.read (Elt Ideal) A1)
        (((cfg0.win 2).blk t).view.read (Elt Ideal) A2)
        (((cfg0.win 3).blk t).view.read (Elt Ideal) A3)
        (((cfg0.win 4).blk t).view.read (Elt Ideal) A4)
        (((cfg0.win 5).blk t).view.read (Elt Ideal) A5)
        (((cfg0.win 6).blk t).view.read (Elt Ideal) A6)
        (((cfg0.win 7).blk t).view.read (Elt Ideal) A7)
        (((cfg0.win 8).blk t).view.read (Elt Ideal) A8)
        (((cfg0.win 9).blk t).view.read (Elt Ideal) A9)
        (((cfg0.win 10).blk t).view.read (Elt Ideal) A10) (ix2 p (0 : Fin 1))
      = rowScore A0 A1 A2 A3 A4 A5 A6 A7 A8 A9 A10 (((cfg0.win 11).blk t).view.emb (ix2 p (0 : Fin 1)))
  rw [hemb]
  exact out_row_of_arrays (((cfg0.win 0).blk t).view.read (Elt Ideal) A0)
        (((cfg0.win 1).blk t).view.read (Elt Ideal) A1)
        (((cfg0.win 2).blk t).view.read (Elt Ideal) A2)
        (((cfg0.win 3).blk t).view.read (Elt Ideal) A3)
        (((cfg0.win 4).blk t).view.read (Elt Ideal) A4)
        (((cfg0.win 5).blk t).view.read (Elt Ideal) A5)
        (((cfg0.win 6).blk t).view.read (Elt Ideal) A6)
        (((cfg0.win 7).blk t).view.read (Elt Ideal) A7)
        (((cfg0.win 8).blk t).view.read (Elt Ideal) A8)
        (((cfg0.win 9).blk t).view.read (Elt Ideal) A9)
        (((cfg0.win 10).blk t).view.read (Elt Ideal) A10)
    A0 A1 A2 A3 A4 A5 A6 A7 A8 A9 A10 p ⟨t.val * 4096 + p.val, hr⟩
    (fun k => read0 t A0 p k _ rfl) (fun k => read1 t A1 p k _ rfl) (fun k => read2 t A2 p k _ rfl)
    (read3 t A3 p 0 _ rfl) (read4 t A4) (read5 t A5) (read6 t A6) (read7 t A7) (read8 t A8) (read9 t A9) (read10 t A10)

/-! ## The 196 blocks tile the output -/

/-- An index of the output array is in point t's block exactly when each coordinate is in the block's range on its
    axis. -/
theorem mem_block (t : Fin cfg0.N) (i : S802816x1.Idx) :
    i ∈ ((cfg0.win 11).blk t).view.set ↔ ∀ a : Fin 2, win0_11.index t a * S4096x1.size a ≤ (i a).val
      ∧ (i a).val < win0_11.index t a * S4096x1.size a + S4096x1.size a := by
  show i ∈ ((View.whole main_v18).slice (win0_11.rect t)).set ↔ _
  rw [View.set_slice_whole, Rect.mem_set_unit]
  exact Iff.rfl

/-- Row r of the output is in the block of point r / 4096, and every point writes its block back. -/
theorem rows_covered (i : S802816x1.Idx) :
    ∃ t : Fin cfg0.N, (cfg0.win 11).flush t = true ∧ i ∈ ((cfg0.win 11).blk t).view.set := by
  have hi0 : (i 0).val < 802816 := (i 0).isLt
  have hi1 : (i 1).val < 1 := (i 1).isLt
  obtain ⟨t, ht⟩ : ∃ t : Fin cfg0.N, t.val = (i 0).val / 4096 :=
    ⟨⟨(i 0).val / 4096, by rw [show cfg0.N = 196 from N_0]; omega⟩, rfl⟩
  obtain ⟨-, -, -, -, -, -, -, -, -, e0, e1⟩ := index_rows t
  refine ⟨t, flush0_11 t, ?_⟩
  rw [mem_block]
  intro a
  match a with
  | ⟨0, _⟩ =>
    show win0_11.index t (0 : Fin 2) * 4096 ≤ (i 0).val ∧ (i 0).val < win0_11.index t (0 : Fin 2) * 4096 + 4096
    omega
  | ⟨1, _⟩ =>
    show win0_11.index t (1 : Fin 2) * 1 ≤ (i 1).val ∧ (i 1).val < win0_11.index t (1 : Fin 2) * 1 + 1
    omega

/-! ## The array after the run -/

/-- What point t writes back is block t of the launch's output of the eleven arrays the region finds. -/
theorem flushed_eq (c : Dev nD) (t : Fin cfg0.N) :
    (dats m 0 c).flushed 11 t = ((cfg0.win 11).blk t).view.read (Elt Ideal)
      (rowScore (V m c main_v7) (V m c main_v8) (V m c main_v6) (V m c main_v10) (V m c main_v11) (V m c main_v12)
          (V m c main_v13) (V m c main_v15) (V m c main_v16) (V m c main_arg5) (V m c main_v17)) := by
  show (cfg0.win 11).cut (grid0.coords t) ((dats m 0 c).after 11 t) = _
  rw [after0_11]
  exact block_score t (V m c main_v7) (V m c main_v8) (V m c main_v6) (V m c main_v10) (V m c main_v11) (V m c main_v12)
          (V m c main_v13) (V m c main_v15) (V m c main_v16) (V m c main_arg5) (V m c main_v17)

-- The 196 blocks cover every row, so the array after the run is the launch's output everywhere.
theorem region_value (c : Dev nD) :
    (dats m 0 c).arrAt 11 cfg0.N
      = rowScore (V m c main_v7) (V m c main_v8) (V m c main_v6) (V m c main_v10) (V m c main_v11) (V m c main_v12)
          (V m c main_v13) (V m c main_v15) (V m c main_v16) (V m c main_arg5) (V m c main_v17) :=
  (dats m 0 c).arrAt_eq_of_cover 11
    (rowScore (V m c main_v7) (V m c main_v8) (V m c main_v6) (V m c main_v10) (V m c main_v11) (V m c main_v12)
          (V m c main_v13) (V m c main_v15) (V m c main_v16) (V m c main_arg5) (V m c main_v17))
    (fun t _ => flushed_eq m c t) rows_covered

end Cert.KernelIdeal.RegionValue

end
-- ==== Proof.GatherRead.lean ====
/-
  A gather of whole rows, and of single entries, read at an index.

  What `table[idx]` lowers to for a table [N, C] (or [N]) and a column [n, 1] of start words: result row p is the table's
  row named by start word p — read signed and held inside the axis, as the gather clamps every start index — and along
  a row the result's second coordinate is the table's.
-/
import proofs.«408209_j12635793785256_1_alg».proof.Proof.Spec
import Idealize.ShloMosaic.Lib.StableHlo.Predicate

noncomputable section

namespace Cert.EdgeMlp

open Idealize.ShloMosaic Idealize.ShloMosaic.ValueIdx

/-- Rows of an [N, C] table gathered at a column of n start words: entry (p, k) is the table's at (row of word p, k). -/
theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (p : Fin n) (k : Fin C) :
    Host.gather d x idx (ix2 p k)
      = x (ix2 (⟨min (idx (ix2 p (0 : Fin 1))).toInt.toNat (N - 1), by omega⟩ : Fin N) k) := by
  obtain ⟨od, cd, ob, sb, sim, ivd, ss, wf⟩ := d
  simp only at hoff hcoll hob hsb hsim hivd hss
  subst hoff hcoll hob hsb hsim hivd hss
  unfold Host.gather
  congr 1
  funext a
  apply Fin.ext
  match a with
  | ⟨0, _⟩ =>
    show GatherDims.start _ (ix2 p k) idx 0 + GatherDims.batchCoord _ (ix2 p k) 0 + GatherDims.offCoord _ (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![N, C]⟩ ⟨2, ![n, 1]⟩ ⟨2, ![n, C]⟩)
        (ix2 p k) ⟨List.idxOf (0 : Fin 2) [0], List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show GatherDims.start _ (ix2 p k) idx 1 + GatherDims.batchCoord _ (ix2 p k) 1 + GatherDims.offCoord _ (ix2 p k) 1 = _
    rw [GatherDims.batchCoord_eq_zero _ _ _ List.not_mem_nil]
    unfold GatherDims.start
    rw [dif_neg (by simp)]
    unfold GatherDims.offCoord
    rw [dif_pos ((GatherDims.mem_sKept _ _).mpr ⟨by simp, List.not_mem_nil⟩)]
    simp only [Nat.zero_add]
    rfl

/-- The same, with the row named as the specification names it. -/
theorem gather_rows_rowOf {α : Type} {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ 32) (p : Fin n) (k : Fin C) :
    Host.gather d x idx (ix2 p k) = x (ix2 (rowOf N hN (idx (ix2 p (0 : Fin 1)))) k) :=
  gather_rows_apply d hoff hcoll hob hsb hsim hivd hss hN x idx p k

/-- Entries of an [N] table gathered at a column of n start words: entry p is the table's at the row of word p. -/
theorem gather_entries_rowOf {α : Type} {N n : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1) (hN : 0 < N)
    (x : (⟨1, ![N]⟩ : Shape).Idx → α) (idx : IVec ⟨2, ![n, 1]⟩ 32) (p : Fin n) :
    Host.gather d x idx (ix1 p) = x (ix1 (rowOf N hN (idx (ix2 p (0 : Fin 1))))) := by
  have e1 : (Shape.Idx.ofFin p : (⟨1, ![n]⟩ : Shape).Idx) = ix1 p := by
    funext a; match a with | ⟨0, _⟩ => rfl
  have e2 : (StableHlo.Predicate.ixP p : (⟨2, ![n, 1]⟩ : Shape).Idx) = ix2 p (0 : Fin 1) := by
    funext a; match a with | ⟨0, _⟩ => rfl | ⟨1, _⟩ => rfl
  have h := StableHlo.Predicate.gather_take d hcoll hob hsim hivd x idx p hN
  rw [e1] at h
  rw [h]
  congr 1
  funext a
  match a with
  | ⟨0, _⟩ =>
    apply Fin.ext
    show min (idx (StableHlo.Predicate.ixP p)).toInt.toNat (N - 1) = min (idx (ix2 p (0 : Fin 1))).toInt.toNat (N - 1)
    rw [e2]

end Cert.EdgeMlp

end
-- ==== Proof.HostRows.lean ====
/-
  The three gathered operands the region is launched on, read at a row below 800000, when every endpoint word is
  inside the node axis: the two endpoint-embedding arrays hold the node table's rows the specification names, and the
  graph-word column holds the specification's graph word.
-/
import proofs.«408209_j12635793785256_1_alg».proof.Proof.Gen.KernelIdeal.Frame
import proofs.«408209_j12635793785256_1_alg».proof.Proof.Spec
import proofs.«408209_j12635793785256_1_alg».proof.Proof.Words
import proofs.«408209_j12635793785256_1_alg».proof.Proof.GatherRead
import Idealize.ShloMosaic.Lib.Pipeline.Value
import Idealize.ShloMosaic.Lib.ValueLayout
import Idealize.ShloMosaic.Lib.ValueIdx
import Idealize.ShloMosaic.Lib.ReduceAll
import Idealize.ShloMosaic.Lib.StableHlo.Run
import Idealize.ShloMosaic.Lib.StableHlo.Predicate

set_option maxRecDepth 16384

noncomputable section

namespace Cert.KernelIdeal.HostRows

open Idealize.ShloMosaic Idealize.ShloMosaic.TcCoe Idealize.ShloMosaic.ValueIdx Idealize.SL.Sem
open Cert.KernelIdeal Cert.KernelIdeal.Gen Cert.EdgeMlp

variable (m : (ℓ : Loc nD τ sig) → Buf (Elt Ideal) ℓ)

/-! ### The host operations before the region, as functions of the argument arrays -/

/-- Endpoint row `a` of the edge array, as a vector of 800000 words. -/
def endRow (a : Fin 2) (hs : S2x800000.Slices ![a.val, 0] S1x800000) (ei : IVec S2x800000 32) : IVec S800000 32 :=
  fun i => shapeCast S800000 (extractStridedSlice S1x800000 ![a.val, 0] ei hs) Facts₀.shapeCasts_S1x800000_S800000 i

theorem endRow_apply (a : Fin 2) (hs : S2x800000.Slices ![a.val, 0] S1x800000) (ei : IVec S2x800000 32) (e : Fin 800000) :
    endRow a hs ei (ix1 e) = ei (ix2 a e) := by
  unfold endRow
  rw [shapeCast_apply _ _ (ix1 e) (ix2 (0 : Fin 1) e)
    (by rw [Shape.rowMajor_val_two, Shape.rowMajor_val_one]; show 0 * 800000 + e.val = e.val; omega)]
  exact slice2_axis0_apply a.val ei hs (0 : Fin 1) e a (by simp)

/-- The vector lengthened to 802816 entries by zero words behind it. -/
def padIdx (x : IVec S800000 32) : IVec S802816 32 :=
  pad S802816 ![0] ![2816] ![0] x (id (constantI S_ 32 0#32)) Facts₀.pads_S800000_S802816_028160 Facts₀.h_S_

theorem padIdx_lt (x : IVec S800000 32) (p : Fin 802816) (hp : p.val < 800000) :
    padIdx x (ix1 p) = x (ix1 ⟨p.val, hp⟩) := by
  unfold padIdx pad
  split
  · congr 1
    funext a
    match a with
    | ⟨0, _⟩ => exact Fin.ext (by simp)
  · rename_i hn
    exact absurd (fun a => by match a with | ⟨0, _⟩ => exact ⟨Nat.zero_le _, Nat.mod_one _, by simpa using hp⟩) hn

theorem padIdx_inRange (x : IVec S800000 32) (hx : ∀ i, InRange 50000 (x i)) (i : S802816.Idx) :
    InRange 50000 (padIdx x i) := by
  unfold padIdx pad
  split
  · exact hx _
  · exact ⟨by decide, by decide⟩

/-- A word counted from the end of the node axis when negative, entry by entry. -/
def wrapVec (idx : IVec S802816 32) : IVec S802816 32 :=
  select (cmpi .slt idx (broadcastInDim S802816 ![] Facts₀.bcast_S_S802816 (constantI S_ 32 0#32)))
    (addi idx (broadcastInDim S802816 ![] Facts₀.bcast_S_S802816 (constantI S_ 32 50000#32))) idx

theorem wrapVec_apply (idx : IVec S802816 32) (i : S802816.Idx) : wrapVec idx i = wrapIdx 50000#32 (idx i) := rfl

/-- A vector as a column. -/
def colVec (v : IVec S802816 32) : IVec S802816x1 32 :=
  broadcastInDim S802816x1 ![0] Facts₀.bcast_S802816_S802816x1_0 v

theorem colVec_apply (v : IVec S802816 32) (p : Fin 802816) (q : Fin 1) : colVec v (ix2 p q) = v (ix1 p) :=
  broadcastInDim_apply _ _ _ _ _ (fun a => by match a with | ⟨0, _⟩ => exact (if_neg (by decide : ¬ (802816 : ℕ) = 1)).symm)

/-- The test a filling gather makes of each start word: 0 ≤ w and w ≤ 49999, both signed. -/
def rangeTest (v5 : IVec S802816x1 32) : IVec S802816x1 1 :=
  andi (cmpi .sge v5 (broadcastInDim S802816x1 ![] Facts₀.bcast_S_S802816x1 (constantI S_ 32 0#32)))
    (cmpi .sle v5 (broadcastInDim S802816x1 ![0, 1] Facts₀.bcast_S1x1_S802816x1_0_1
      (broadcastInDim S1x1 ![1] Facts₀.bcast_S1_S1x1_1 (constantI S1 32 49999#32))))

theorem rangeTest_apply (v5 : IVec S802816x1 32) (i : S802816x1.Idx) :
    rangeTest v5 i = IntOp.andi (IntOp.cmpi .sge (v5 i) 0#32) (IntOp.cmpi .sle (v5 i) 49999#32) := rfl

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1) (1#1) = 1#1 from by decide]
    exact foldl_andi_one f l fun n hn => h n (List.mem_cons_of_mem _ hn)

/-- A reduction by `and` from 1 of an array of ones is 1 at every result index. -/
theorem reduce_andi_one {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl, hinit]
  exact foldl_andi_one x _ fun n _ => hx n

/-- Whether each (wrapped) start word lies inside the node axis. -/
def inAxis (idx : IVec S802816 32) : IVec S802816 1 :=
  Host.reduce IntOp.andi (rangeTest (colVec (wrapVec idx))) (constantI S_ 1 1#1) Facts₀.reducesTo_S802816x1_S802816_d1 Facts₀.h_S_

theorem inAxis_one (idx : IVec S802816 32) (hidx : ∀ i, InRange 50000 (idx i)) (j : S802816.Idx) : inAxis idx j = 1#1 := by
  unfold inAxis
  refine reduce_andi_one _ _ _ _ (fun _ => rfl) (fun i => ?_) j
  obtain ⟨p, q, rfl⟩ : ∃ (p : Fin 802816) (q : Fin 1), i = ix2 p q := ⟨i 0, i 1, eq_ix2 i⟩
  rw [rangeTest_apply, colVec_apply, wrapVec_apply, wrapIdx_of_inRange 50000#32 (hidx (ix1 p))]
  exact IntOp.andi_eq_one.2 ⟨sge_zero_of_inRange (hidx (ix1 p)), sle_last_of_inRange (N := 50000) (by decide) (by decide) (hidx (ix1 p))⟩

/-- `table[idx]` for the node table: rows gathered at the wrapped words, a quiet-NaN word where a word is outside the axis. -/
def takeRows (tbl : FVec Ideal S50000x64 .f32) (idx : IVec S802816 32) : FVec Ideal S802816x64 .f32 :=
  select (broadcastInDim S802816x64 ![0] Facts₀.bcast_S802816_S802816x64_0 (inAxis idx))
    (Host.gather gather_S50000x64_S802816x1_S802816x64_1_0_n_n_0_1_164 tbl (colVec (wrapVec idx)))
    (broadcastInDim S802816x64 ![] Facts₀.bcast_S_S802816x64 (constant (F := Ideal) S_ .f32 0x7FC00000#32))

theorem takeRows_apply (tbl : FVec Ideal S50000x64 .f32) (idx : IVec S802816 32) (hidx : ∀ i, InRange 50000 (idx i))
    (p : Fin 802816) (k : Fin 64) :
    takeRows tbl idx (ix2 p k) = tbl (ix2 (rowOf 50000 (by decide) (wrapIdx 50000#32 (idx (ix1 p)))) k) := by
  unfold takeRows
  rw [select_apply, broadcastInDim_apply _ _ (inAxis idx) (ix2 p k) (ix1 p)
    (fun a => by match a with | ⟨0, _⟩ => exact (if_neg (by decide : ¬ (802816 : ℕ) = 1)).symm), inAxis_one idx hidx, select_one,
    gather_rows_rowOf _ rfl rfl rfl rfl rfl rfl rfl (by decide) tbl _ p k, colVec_apply, wrapVec_apply]

/-- `table[idx]` for the graph-word table: entries gathered at the wrapped words, the word 2^31 where a word is outside. -/
def takeWords (tbl : IVec S50000 32) (idx : IVec S802816 32) : IVec S802816 32 :=
  select (inAxis idx) (Host.gather gather_S50000_S802816x1_S802816_n_0_n_n_0_1_1 tbl (colVec (wrapVec idx)))
    (broadcastInDim S802816 ![] Facts₀.bcast_S_S802816 (constantI S_ 32 2147483648#32))

theorem takeWords_apply (tbl : IVec S50000 32) (idx : IVec S802816 32) (hidx : ∀ i, InRange 50000 (idx i)) (p : Fin 802816) :
    takeWords tbl idx (ix1 p) = tbl (ix1 (rowOf 50000 (by decide) (wrapIdx 50000#32 (idx (ix1 p))))) := by
  unfold takeWords
  rw [select_apply, inAxis_one idx hidx, select_one,
    gather_entries_rowOf _ rfl rfl rfl rfl (by decide) tbl _ p, colVec_apply, wrapVec_apply]

/-- Contents carried to a buffer's type and back are the contents. -/
theorem ofBuf_toBuf {T : BufTy} (x : StableHlo.TRef sig T) (v : T.Contents (Elt Ideal)) :
    x.ofBuf (x.toBuf v) = v := by
  unfold StableHlo.TRef.ofBuf StableHlo.TRef.toBuf
  rw [cast_cast, cast_eq]

theorem toBuf_v7 (v : FVec Ideal S802816x64 .f32) :
    (StableHlo.TRef.of main_v7 : StableHlo.TRef sig ⟨S802816x64, .f32⟩).toBuf (Val := Elt Ideal) v = v := rfl
theorem toBuf_v8 (v : FVec Ideal S802816x64 .f32) :
    (StableHlo.TRef.of main_v8 : StableHlo.TRef sig ⟨S802816x64, .f32⟩).toBuf (Val := Elt Ideal) v = v := rfl
theorem toBuf_v9 (v : IVec S802816 32) :
    (StableHlo.TRef.of main_v9 : StableHlo.TRef sig ⟨S802816, .i32⟩).toBuf (Val := Elt Ideal) v = v := rfl
theorem ofBuf_v1 (v : IVec S800000 32) :
    (StableHlo.TRef.of main_v1 : StableHlo.TRef sig ⟨S800000, .i32⟩).ofBuf (Val := Elt Ideal) v = v := rfl
theorem ofBuf_v3 (v : IVec S800000 32) :
    (StableHlo.TRef.of main_v3 : StableHlo.TRef sig ⟨S800000, .i32⟩).ofBuf (Val := Elt Ideal) v = v := rfl
theorem ofBuf_c (v : IVec S_ 32) :
    (StableHlo.TRef.of main_c : StableHlo.TRef sig ⟨S_, .i32⟩).ofBuf (Val := Elt Ideal) v = v := rfl
theorem ofBuf_c_0 (v : IVec S_ 32) :
    (StableHlo.TRef.of main_c_0 : StableHlo.TRef sig ⟨S_, .i32⟩).ofBuf (Val := Elt Ideal) v = v := rfl
theorem ofBuf_arg0 (v : FVec Ideal S50000x64 .f32) :
    (StableHlo.TRef.of main_arg0 : StableHlo.TRef sig ⟨S50000x64, .f32⟩).ofBuf (Val := Elt Ideal) v = v := rfl
theorem ofBuf_arg8 (v : IVec S50000 32) :
    (StableHlo.TRef.of main_arg8 : StableHlo.TRef sig ⟨S50000, .i32⟩).ofBuf (Val := Elt Ideal) v = v := rfl

/-! ### The three operands as the region finds them -/

set_option maxHeartbeats 4000000 in
/-- The source-endpoint rows: the node table taken at the lengthened row 0 of the edge array. -/
theorem V_src_eq (c : Dev nD) :
    (V m c main_v7 : S802816x64.Idx → EReal)
      = takeRows (m ((c.tc : Thread nD τ).loc main_arg0))
          (padIdx (endRow 0 Facts₀.slices_S2x800000_S1x800000_0_0 (m ((c.tc : Thread nD τ).loc main_arg7)))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  simp only [ofBuf_toBuf, toBuf_v7, ofBuf_v1, ofBuf_c, ofBuf_arg0]
  unfold takeRows inAxis rangeTest colVec wrapVec padIdx endRow
  rfl

set_option maxHeartbeats 4000000 in
/-- The destination-endpoint rows: the node table taken at the lengthened row 1 of the edge array. -/
theorem V_dst_eq (c : Dev nD) :
    (V m c main_v8 : S802816x64.Idx → EReal)
      = takeRows (m ((c.tc : Thread nD τ).loc main_arg0))
          (padIdx (endRow 1 Facts₀.slices_S2x800000_S1x800000_1_0 (m ((c.tc : Thread nD τ).loc main_arg7)))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  simp only [ofBuf_toBuf, toBuf_v8, ofBuf_v3, ofBuf_c_0, ofBuf_arg0]
  unfold takeRows inAxis rangeTest colVec wrapVec padIdx endRow
  rfl

set_option maxHeartbeats 4000000 in
/-- The graph-word column: the graph-word table taken at the lengthened row 0 of the edge array, as a column. -/
theorem V_graph_eq (c : Dev nD) :
    (V m c main_v10 : S802816x1.Idx → BitVec 32)
      = fun i => shapeCast S802816x1 (takeWords (m ((c.tc : Thread nD τ).loc main_arg8))
          (padIdx (endRow 0 Facts₀.slices_S2x800000_S1x800000_0_0 (m ((c.tc : Thread nD τ).loc main_arg7)))))
          Facts₀.shapeCasts_S802816_S802816x1 i := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  simp only [ofBuf_toBuf, toBuf_v9, ofBuf_v1, ofBuf_c, ofBuf_arg8]
  unfold takeWords inAxis rangeTest colVec wrapVec padIdx endRow
  rfl

/-- Every word of a lengthened endpoint row lies inside the node axis when every endpoint word does. -/
theorem endIdx_inRange (ei : IVec S2x800000 32) (hE : ∀ i, InRange 50000 (ei i)) (a : Fin 2)
    (hs : S2x800000.Slices ![a.val, 0] S1x800000) (i : S802816.Idx) : InRange 50000 (padIdx (endRow a hs ei) i) := by
  refine padIdx_inRange _ (fun j => ?_) i
  obtain ⟨e, rfl⟩ : ∃ e : Fin 800000, j = ix1 e := ⟨j 0, eq_ix1 j⟩
  rw [endRow_apply]
  exact hE _

/-- A lengthened endpoint row, below 800000, is the edge array's word. -/
theorem endIdx_lt (ei : IVec S2x800000 32) (a : Fin 2) (hs : S2x800000.Slices ![a.val, 0] S1x800000)
    (r : Fin 802816) (hr : r.val < 800000) : padIdx (endRow a hs ei) (ix1 r) = ei (ix2 a ⟨r.val, hr⟩) := by
  rw [padIdx_lt _ r hr, endRow_apply]

theorem V_src (c : Dev nD) (hE : ∀ i, InRange 50000 (m ((c.tc : Thread nD τ).loc main_arg7) i))
    (r : Fin 802816) (hr : r.val < 800000) (k : Fin 64) :
    V m c main_v7 (ix2 r k)
      = m ((c.tc : Thread nD τ).loc main_arg0) (ix2 (nodeRow (m ((c.tc : Thread nD τ).loc main_arg7)) 0 ⟨r.val, hr⟩) k) := by
  refine (congrFun (V_src_eq m c) (ix2 r k)).trans ?_
  rw [takeRows_apply _ _ (endIdx_inRange _ hE 0 _) r k, endIdx_lt _ 0 _ r hr]
  rfl

theorem V_dst (c : Dev nD) (hE : ∀ i, InRange 50000 (m ((c.tc : Thread nD τ).loc main_arg7) i))
    (r : Fin 802816) (hr : r.val < 800000) (k : Fin 64) :
    V m c main_v8 (ix2 r k)
      = m ((c.tc : Thread nD τ).loc main_arg0) (ix2 (nodeRow (m ((c.tc : Thread nD τ).loc main_arg7)) 1 ⟨r.val, hr⟩) k) := by
  refine (congrFun (V_dst_eq m c) (ix2 r k)).trans ?_
  rw [takeRows_apply _ _ (endIdx_inRange _ hE 1 _) r k, endIdx_lt _ 1 _ r hr]
  rfl

theorem V_graph (c : Dev nD) (hE : ∀ i, InRange 50000 (m ((c.tc : Thread nD τ).loc main_arg7) i))
    (r : Fin 802816) (hr : r.val < 800000) :
    V m c main_v10 (ix2 r (0 : Fin 1))
      = graphWord (m ((c.tc : Thread nD τ).loc main_arg7)) (m ((c.tc : Thread nD τ).loc main_arg8)) ⟨r.val, hr⟩ := by
  refine (congrFun (V_graph_eq m c) (ix2 r (0 : Fin 1))).trans ?_
  show shapeCast S802816x1 _ _ (ix2 r (0 : Fin 1)) = _
  rw [shapeCast_apply _ _ (ix2 r (0 : Fin 1)) (ix1 r)
    (by rw [Shape.rowMajor_val_two, Shape.rowMajor_val_one]; show r.val = r.val * 1 + 0; omega),
    takeWords_apply _ _ (endIdx_inRange _ hE 0 _) r, endIdx_lt _ 0 _ r hr]
  rfl

end Cert.KernelIdeal.HostRows

end
-- ==== Proof.HostSmall.lean ====
/-
  The other operands the region is launched on: the padded edge attributes at a row below 800000, the three row bands of
  W1, the context table (global_ctx times the last row band of W1), and the two biases kept as rows.
-/
import proofs.«408209_j12635793785256_1_alg».proof.Proof.Gen.KernelIdeal.Frame
import proofs.«408209_j12635793785256_1_alg».proof.Proof.Spec
import proofs.«408209_j12635793785256_1_alg».proof.Proof.RegionSpec
import proofs.«408209_j12635793785256_1_alg».proof.Proof.LibDotSum
import Idealize.ShloMosaic.Lib.Pipeline.Value
import Idealize.ShloMosaic.Lib.ValueLayout
import Idealize.ShloMosaic.Lib.ValueIdx
import Idealize.ShloMosaic.Lib.StableHlo.Run
import Idealize.ShloMosaic.PureOps.Ideal.Laws

set_option maxRecDepth 16384

noncomputable section

namespace Cert.KernelIdeal.HostSmall

open Idealize.ShloMosaic Idealize.ShloMosaic.TcCoe Idealize.ShloMosaic.ValueIdx Idealize.SL.Sem
open Cert.KernelIdeal Cert.KernelIdeal.Gen Cert.EdgeMlp
open scoped BigOperators

variable (m : (ℓ : Loc nD τ sig) → Buf (Elt Ideal) ℓ)

/-- The operands as launched, at their literal types. -/
abbrev attrArr (c : Dev nD) : FVec Ideal S800000x16 .f32 := m ((c.tc : Thread nD τ).loc main_arg2)
abbrev w1In (c : Dev nD) : FVec Ideal S272x256 .f32 := m ((c.tc : Thread nD τ).loc main_arg3)
abbrev gcIn (c : Dev nD) : FVec Ideal S64x128 .f32 := m ((c.tc : Thread nD τ).loc main_arg1)
abbrev b1In (c : Dev nD) : FVec Ideal S256 .f32 := m ((c.tc : Thread nD τ).loc main_arg4)
abbrev b2In (c : Dev nD) : FVec Ideal S1 .f32 := m ((c.tc : Thread nD τ).loc main_arg6)

set_option maxHeartbeats 2000000 in
/-- What the host leaves in the seven arrays: each is one pure operation of the launched operands. The padding value of the
    attribute table is the float of the integer word 0; it is never read below row 800000. -/
theorem hostTerms (c : Dev nD) :
    ((V m c main_v6 : FVec Ideal S802816x16 .f32)
        = pad S802816x16 ![0, 0] ![2816, 0] ![0, 0] (attrArr m c) (sitofp (F := Ideal) .f32 (constantI S_ 32 0#32))
            pads_S800000x16_S802816x16_028160_000 h_S_)
    ∧ ((V m c main_v11 : FVec Ideal S64x256 .f32) = extractStridedSlice S64x256 ![0, 0] (w1In m c) slices_S272x256_S64x256_0_0)
    ∧ ((V m c main_v12 : FVec Ideal S64x256 .f32) = extractStridedSlice S64x256 ![64, 0] (w1In m c) slices_S272x256_S64x256_64_0)
    ∧ ((V m c main_v13 : FVec Ideal S16x256 .f32) = extractStridedSlice S16x256 ![128, 0] (w1In m c) slices_S272x256_S16x256_128_0)
    ∧ ((V m c main_v15 : FVec Ideal S64x256 .f32)
        = Host.dotGeneral dot_S64x128_S128x256_S64x256_1_0_0_1_n_n none (gcIn m c)
            (extractStridedSlice S128x256 ![144, 0] (w1In m c) slices_S272x256_S128x256_144_0))
    ∧ ((V m c main_v16 : FVec Ideal S1x256 .f32) = shapeCast S1x256 (b1In m c) shapeCasts_S256_S1x256)
    ∧ ((V m c main_v17 : FVec Ideal S1x1 .f32) = shapeCast S1x1 (b2In m c) shapeCasts_S1_S1x1) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  and_intros
  all_goals first | rfl | exact True.intro

/-- Padding by zero rows at the end: a row below 800000 is the operand's row. -/
theorem pad_rows_apply (x : FVec Ideal S800000x16 .f32) (v : FVec Ideal S_ .f32) (r : Fin 802816) (hr : r.val < 800000)
    (k : Fin 16) :
    pad S802816x16 ![0, 0] ![2816, 0] ![0, 0] x v pads_S800000x16_S802816x16_028160_000 h_S_ (ix2 r k)
      = x (ix2 (⟨r.val, hr⟩ : Fin 800000) k) := by
  unfold pad
  split
  · refine congrArg x (funext fun a => Fin.ext ?_)
    match a with
    | ⟨0, _⟩ => show (r.val - 0) / (0 + 1) = r.val; omega
    | ⟨1, _⟩ => show (k.val - 0) / (0 + 1) = k.val; omega
  · rename_i hin
    refine absurd (fun a => ?_) hin
    match a with
    | ⟨0, _⟩ => show 0 ≤ r.val ∧ (r.val - 0) % (0 + 1) = 0 ∧ (r.val - 0) / (0 + 1) < 800000; omega
    | ⟨1, _⟩ => show 0 ≤ k.val ∧ (k.val - 0) % (0 + 1) = 0 ∧ (k.val - 0) / (0 + 1) < 16; have := k.isLt; omega

theorem V_attr (c : Dev nD) (r : Fin 802816) (hr : r.val < 800000) (k : Fin 16) :
    V m c main_v6 (ix2 r k) = m ((c.tc : Thread nD τ).loc main_arg2) (ix2 (⟨r.val, hr⟩ : Fin 800000) k) := by
  rw [(hostTerms m c).1]
  exact pad_rows_apply (attrArr m c) _ r hr k

theorem V_w1_src (c : Dev nD) (k : Fin 64) (j : Fin 256) :
    V m c main_v11 (ix2 k j) = m ((c.tc : Thread nD τ).loc main_arg3) (ix2 (⟨k.val, by omega⟩ : Fin 272) j) := by
  rw [(hostTerms m c).2.1]
  refine extractStridedSlice_apply ![0, 0] (w1In m c) slices_S272x256_S64x256_0_0 (ix2 k j) (ix2 (⟨k.val, by omega⟩ : Fin 272) j) fun a => ?_
  match a with
  | ⟨0, _⟩ => show k.val = 0 + k.val; omega
  | ⟨1, _⟩ => show j.val = 0 + j.val; omega

theorem V_w1_dst (c : Dev nD) (k : Fin 64) (j : Fin 256) :
    V m c main_v12 (ix2 k j) = m ((c.tc : Thread nD τ).loc main_arg3) (ix2 (⟨64 + k.val, by omega⟩ : Fin 272) j) := by
  rw [(hostTerms m c).2.2.1]
  refine extractStridedSlice_apply ![64, 0] (w1In m c) slices_S272x256_S64x256_64_0 (ix2 k j) (ix2 (⟨64 + k.val, by omega⟩ : Fin 272) j) fun a => ?_
  match a with
  | ⟨0, _⟩ => show 64 + k.val = 64 + k.val; rfl
  | ⟨1, _⟩ => show j.val = 0 + j.val; omega

theorem V_w1_attr (c : Dev nD) (k : Fin 16) (j : Fin 256) :
    V m c main_v13 (ix2 k j) = m ((c.tc : Thread nD τ).loc main_arg3) (ix2 (⟨128 + k.val, by omega⟩ : Fin 272) j) := by
  rw [(hostTerms m c).2.2.2.1]
  refine extractStridedSlice_apply ![128, 0] (w1In m c) slices_S272x256_S16x256_128_0 (ix2 k j) (ix2 (⟨128 + k.val, by omega⟩ : Fin 272) j) fun a => ?_
  match a with
  | ⟨0, _⟩ => show 128 + k.val = 128 + k.val; rfl
  | ⟨1, _⟩ => show j.val = 0 + j.val; omega

/-- The graph-context table, the first-layer weight and the context table the region finds, at their literal types. -/
abbrev gcArr (c : Dev nD) : FVec Ideal T64x128 .f32 := m ((c.tc : Thread nD τ).loc main_arg1)
abbrev w1Arr (c : Dev nD) : FVec Ideal T272x256 .f32 := m ((c.tc : Thread nD τ).loc main_arg3)
abbrev ctxTable (c : Dev nD) : FVec Ideal T64x256 .f32 := V m c main_v15

theorem V_ctx_table (c : Dev nD) (g : Fin 64) (j : Fin 256) :
    ctxTable m c (ix2 g j)
      = ∑ k : Fin 128, gcArr m c (ix2 g k) * w1Arr m c (ix2 (⟨144 + k.val, by omega⟩ : Fin 272) j) := by
  refine (congrFun (hostTerms m c).2.2.2.2.1 (ix2 g j)).trans ?_
  refine (Cert.Lib.dotGeneral_rc_apply dot_S64x128_S128x256_S64x256_1_0_0_1_n_n rfl rfl rfl rfl rfl rfl none (gcIn m c)
    (extractStridedSlice S128x256 ![144, 0] (w1In m c) slices_S272x256_S128x256_144_0) g j).trans ?_
  refine Finset.sum_congr rfl fun k _ => congrArg (gcArr m c (ix2 g k) * ·) ?_
  refine extractStridedSlice_apply ![144, 0] (w1In m c) slices_S272x256_S128x256_144_0 (ix2 k j) (ix2 (⟨144 + k.val, by omega⟩ : Fin 272) j) fun a => ?_
  match a with
  | ⟨0, _⟩ => show 144 + k.val = 144 + k.val; rfl
  | ⟨1, _⟩ => show j.val = 0 + j.val; omega

theorem V_b1 (c : Dev nD) (j : Fin 256) :
    V m c main_v16 (ix2 (0 : Fin 1) j) = m ((c.tc : Thread nD τ).loc main_arg4) (ix1 j) := by
  rw [(hostTerms m c).2.2.2.2.2.1]
  refine shapeCast_apply (b1In m c) shapeCasts_S256_S1x256 (ix2 (0 : Fin 1) j) (ix1 j) ?_
  rw [Shape.rowMajor_val_one, Shape.rowMajor_val_two]
  show j.val = 0 * 256 + j.val
  omega

theorem V_b2 (c : Dev nD) :
    V m c main_v17 (ix2 (0 : Fin 1) (0 : Fin 1)) = m ((c.tc : Thread nD τ).loc main_arg6) (ix1 (0 : Fin 1)) := by
  rw [(hostTerms m c).2.2.2.2.2.2]
  refine shapeCast_apply (b2In m c) shapeCasts_S1_S1x1 (ix2 (0 : Fin 1) (0 : Fin 1)) (ix1 (0 : Fin 1)) ?_
  rw [Shape.rowMajor_val_one, Shape.rowMajor_val_two]
  rfl

end Cert.KernelIdeal.HostSmall

end
-- ==== Proof.PreRange.lean ====
/-
  The precondition, read: every endpoint word is inside the node axis (extent 50000) and every batch word inside the
  graph axis (extent 64).

  The precondition is one bit: the conjunction of eleven "all entries pass" tests, seven on the float arrays and four
  on the two integer arrays. Only the last four matter here: each endpoint word e satisfies 0 ≤ e and e < 50000, each
  batch word b satisfies 0 ≤ b and b < 64, all read signed. A conjunction that is 1 has both sides 1, so the float
  part is carried along as one unexamined bit; an "all" that is 1 is 1 at every entry; a scalar spread over an array
  reads as that scalar at every entry; and a signed comparison word that is 1 is the order relation between the two
  signed values.
-/
import proofs.«408209_j12635793785256_1_alg».proof.Defs
import proofs.«408209_j12635793785256_1_alg».proof.Proof.Gen.KernelIdeal
import proofs.«408209_j12635793785256_1_alg».proof.Proof.Gen.Pre_finite_inputs
import proofs.«408209_j12635793785256_1_alg».proof.Proof.Words
import Idealize.ShloMosaic.Lib.ReduceAll
import Idealize.ShloMosaic.Lib.ValueIdx
import Idealize.ShloMosaic.Lib.StableHlo.Predicate

set_option maxRecDepth 16384

noncomputable section

namespace Cert.KernelIdeal.PreRange

open Idealize.ShloMosaic Idealize.ShloMosaic.TcCoe Idealize.ShloMosaic.ValueIdx Idealize.SL.Sem
open Cert.KernelIdeal Cert.EdgeMlp

variable (m : (ℓ : Loc nD τ sig) → Buf (Elt Ideal) ℓ)

/-- The scalar shape has one index. -/
instance scalarIdx_subsingleton : Subsingleton Cert.Pre_finite_inputs.S_.Idx :=
  ⟨fun _ _ => funext fun d => d.elim0⟩

/-- A conjunction of two one-bit scalars is 1 exactly when both are. -/
theorem and_scalar (a b : IVec Cert.Pre_finite_inputs.S_ 1) (j : Cert.Pre_finite_inputs.S_.Idx) :
    andi a b j = 1#1 ↔ a j = 1#1 ∧ b j = 1#1 :=
  IntOp.andi_eq_one

/-- Signed 0 ≤ w and w < N, as comparison words, say that w is inside the axis of extent N. -/
theorem inRange_of_cmp {N : Nat} (hN : N < 2 ^ 31) {w : BitVec 32} (h0 : IntOp.cmpi .sge w 0#32 = 1#1)
    (h1 : IntOp.cmpi .slt w (BitVec.ofNat 32 N) = 1#1) : InRange N w := by
  rw [IntOp.cmpi_sge] at h0
  rw [IntOp.cmpi_slt, StableHlo.Predicate.toInt_ofNat_small N hN] at h1
  exact ⟨h0, h1⟩

/-- A word array compared entrywise with a scalar spread over its shape: at each entry, the word against the scalar. -/
theorem cmp_spread (p : CmpIPredicate) (S : Shape)
    (hS : Cert.Pre_finite_inputs.S_.BroadcastsInDim S (![] : Fin 0 → Fin S.rank)) (a : IVec S 32) (c : BitVec 32) (i : S.Idx) :
    cmpi p a (broadcastInDim S ![] hS (constantI Cert.Pre_finite_inputs.S_ 32 c)) i = IntOp.cmpi p (a i) c :=
  rfl

/-- The tail of the precondition (its last four tests) being 1 puts every endpoint word and every batch word inside
    its axis, whatever bit the earlier tests gave. -/
theorem tail_read (a7 : IVec Cert.Pre_finite_inputs.S2x800000 32) (a8 : IVec Cert.Pre_finite_inputs.S50000 32)
    (v : IVec Cert.Pre_finite_inputs.S_ 1) (j : Cert.Pre_finite_inputs.S_.Idx)
    (e : Cert.Pre_finite_inputs.fn_part2 (F := Ideal) a7 a8 v j = 1#1) :
    (∀ i, InRange 50000 (a7 i)) ∧ (∀ i, InRange 64 (a8 i)) := by
  unfold Cert.Pre_finite_inputs.fn_part2 at e
  dsimp only at e
  obtain ⟨e, e4⟩ := (and_scalar _ _ j).1 e
  obtain ⟨e, e3⟩ := (and_scalar _ _ j).1 e
  obtain ⟨e, e2⟩ := (and_scalar _ _ j).1 e
  obtain ⟨-, e1⟩ := (and_scalar _ _ j).1 e
  refine ⟨fun i => ?_, fun i => ?_⟩
  · refine inRange_of_cmp (by decide) ?_ ?_
    · exact (cmp_spread _ _ _ a7 _ i).symm.trans (Host.reduce_andi_all _ _ _ _ j e1 i)
    · exact (cmp_spread _ _ _ a7 _ i).symm.trans (Host.reduce_andi_all _ _ _ _ j e2 i)
  · refine inRange_of_cmp (by decide) ?_ ?_
    · exact (cmp_spread _ _ _ a8 _ i).symm.trans (Host.reduce_andi_all _ _ _ _ j e3 i)
    · exact (cmp_spread _ _ _ a8 _ i).symm.trans (Host.reduce_andi_all _ _ _ _ j e4 i)

theorem edges_inRange (h : Cert.Pre_KernelIdeal m) (c : Dev nD) (i : S2x800000.Idx) :
    InRange 50000 (m ((c.tc : Thread nD τ).loc main_arg7) i) := by
  have e := congrFun (h c) ValueIdx.ix0
  unfold Cert.Pre_finite_inputs.fn Cert.Pre_finite_inputs.fn_part1 at e
  dsimp only at e
  exact (tail_read _ _ _ _ e).1 i

theorem batch_inRange (h : Cert.Pre_KernelIdeal m) (c : Dev nD) (i : S50000.Idx) :
    InRange 64 (m ((c.tc : Thread nD τ).loc main_arg8) i) := by
  have e := congrFun (h c) ValueIdx.ix0
  unfold Cert.Pre_finite_inputs.fn Cert.Pre_finite_inputs.fn_part1 at e
  dsimp only at e
  exact (tail_read _ _ _ _ e).2 i

end Cert.KernelIdeal.PreRange

end
-- ==== Proof.KernelScore.lean ====
/-
  The kernel program computes the specification, under the precondition.

  After the launch the output array is `rowScore` of the eleven arrays the region was launched on. The two host lines
  after the region keep rows 0 … 799999 of its one column. At such a row the arrays hold, by the host lines before the
  region: the node table's rows the endpoint words name, the edge's attributes, the edge's graph word, the three row
  bands of W1, the product of global_ctx with W1's last band, and the biases. The graph word lies inside the graph
  axis, so the one-hot row times that product is the product's row at the word, which is global_ctx's row there
  contracted with W1's last band: the fourth partial contraction of the specification.
-/
import proofs.«408209_j12635793785256_1_alg».proof.Defs
import proofs.«408209_j12635793785256_1_alg».proof.Proof.Gen.KernelIdeal.Frame
import proofs.«408209_j12635793785256_1_alg».proof.Proof.Spec
import proofs.«408209_j12635793785256_1_alg».proof.Proof.Words
import proofs.«408209_j12635793785256_1_alg».proof.Proof.SumLaws
import proofs.«408209_j12635793785256_1_alg».proof.Proof.RegionSpec
import proofs.«408209_j12635793785256_1_alg».proof.Proof.RegionValue
import proofs.«408209_j12635793785256_1_alg».proof.Proof.HostRows
import proofs.«408209_j12635793785256_1_alg».proof.Proof.HostSmall
import proofs.«408209_j12635793785256_1_alg».proof.Proof.PreRange
import Idealize.ShloMosaic.Lib.Pipeline.Value
import Idealize.ShloMosaic.Lib.ValueIdx
import Idealize.ShloMosaic.Lib.StableHlo.Run

set_option maxRecDepth 16384

noncomputable section

namespace Cert.KernelIdeal.KernelScore

open Idealize.ShloMosaic Idealize.ShloMosaic.TcCoe Idealize.ShloMosaic.ValueIdx Idealize.SL.Sem
open Cert.KernelIdeal Cert.KernelIdeal.Gen Cert.EdgeMlp
open scoped BigOperators

variable (m : (ℓ : Loc nD τ sig) → Buf (Elt Ideal) ℓ)

/-- The result buffer after the two host lines that follow the region: entry e is the output array's at (e, 0). -/
theorem tail_value (c : Dev nD) :
    Pipeline.afterTail₀ cfgs (dats m) 0 (V0 m) [hostOps1] c main_v20
      = fun i : S800000.Idx => (dats m 0 c).arrAt 11 cfg0.N (ix2 (⟨(i 0).val, by have h : (i 0).val < 800000 := (i 0).isLt; omega⟩ : Fin 802816) (0 : Fin 1)) := by
  unfold Pipeline.afterTail₀
  show StableHlo.after hostOps1 _ (Proc.devRef .tc main_v20) = _
  after_results
  funext i
  have hi : (i 0).val < 800000 := (i 0).isLt
  have hY := Pipeline.withArrays_arr spec0 launch0.win.arr_inj c (V0 m c) (fun w => (dats m 0 c).arrAt w cfg0.N) 11
  generalize Pipeline.withArrays (cfgs 0).spec c (V0 m c) (fun w => (dats m 0 c).arrAt w (cfgs 0).N) (Proc.tc.devRef main_v18) = Y at hY ⊢
  show shapeCast S800000 (extractStridedSlice S800000x1 ![0, 0] Y slices_S802816x1_S800000x1_0_0) shapeCasts_S800000x1_S800000 i = _
  rw [shapeCast_apply _ shapeCasts_S800000x1_S800000 i (ix2 (⟨(i 0).val, hi⟩ : Fin 800000) (0 : Fin 1))
    (by rewrite [Shape.rowMajor_val_two, Shape.rowMajor_val_one]; show (i 0).val * 1 + 0 = (i 0).val; omega)]
  rw [extractStridedSlice_apply ![0, 0] Y slices_S802816x1_S800000x1_0_0 (ix2 (⟨(i 0).val, hi⟩ : Fin 800000) (0 : Fin 1))
    (ix2 (⟨(i 0).val, by omega⟩ : Fin 802816) (0 : Fin 1)) (fun a => match a with
      | ⟨0, _⟩ => by show (i 0).val = 0 + (i 0).val; omega
      | ⟨1, _⟩ => by show 0 = 0 + 0; rfl)]
  rw [hY]

/-- The argument arrays at their literal types. -/
abbrev neA (c : Dev nD) : FVec Ideal T50000x64 .f32 := m ((c.tc : Thread nD τ).loc main_arg0)
abbrev gcA (c : Dev nD) : FVec Ideal T64x128 .f32 := m ((c.tc : Thread nD τ).loc main_arg1)
abbrev eaA (c : Dev nD) : FVec Ideal T800000x16 .f32 := m ((c.tc : Thread nD τ).loc main_arg2)
abbrev w1A (c : Dev nD) : FVec Ideal T272x256 .f32 := m ((c.tc : Thread nD τ).loc main_arg3)
abbrev b1A (c : Dev nD) : FVec Ideal T256 .f32 := m ((c.tc : Thread nD τ).loc main_arg4)
abbrev w2A (c : Dev nD) : FVec Ideal T256x1 .f32 := m ((c.tc : Thread nD τ).loc main_arg5)
abbrev b2A (c : Dev nD) : FVec Ideal T1 .f32 := m ((c.tc : Thread nD τ).loc main_arg6)
abbrev eiA (c : Dev nD) : IVec T2x800000 32 := m ((c.tc : Thread nD τ).loc main_arg7)
abbrev btA (c : Dev nD) : IVec T50000 32 := m ((c.tc : Thread nD τ).loc main_arg8)

/-- Hidden unit j of a row below 800000, on the arrays the region finds, is the specification's hidden unit. -/
theorem hidden_eq (h : Cert.Pre_KernelIdeal m) (c : Dev nD) (r : Fin 802816) (hr : r.val < 800000) (j : Fin 256) :
    rowHidden (V m c main_v7) (V m c main_v8) (V m c main_v6) (V m c main_v10) (V m c main_v11) (V m c main_v12)
        (V m c main_v13) (V m c main_v15) (V m c main_v16) r j
      = Cert.EdgeMlp.hidden (neA m c) (gcA m c) (eaA m c) (w1A m c) (b1A m c) (eiA m c) (btA m c) ⟨r.val, hr⟩ j := by
  have hE := fun i => PreRange.edges_inRange m h c i
  have hB := fun i => PreRange.batch_inRange m h c i
  unfold rowHidden Cert.EdgeMlp.hidden
  refine congrArg₂ (· + ·) (congrArg₂ (· + ·) (congrArg₂ (· + ·) (congrArg₂ (· + ·) ?_ ?_) ?_) ?_) ?_
  · exact Finset.sum_congr rfl fun k _ => by rw [HostRows.V_src m c hE r hr k, HostSmall.V_w1_src m c k j]
  · exact Finset.sum_congr rfl fun k _ => by rw [HostRows.V_dst m c hE r hr k, HostSmall.V_w1_dst m c k j]
  · exact Finset.sum_congr rfl fun k _ => by rw [HostSmall.V_attr m c r hr k, HostSmall.V_w1_attr m c k j]
  · rw [HostRows.V_graph m c hE r hr]
    have hwR : InRange 64 (graphWord (eiA m c) (btA m c) ⟨r.val, hr⟩) := hB _
    generalize hw : graphWord (eiA m c) (btA m c) ⟨r.val, hr⟩ = w at hwR
    have hlt : w.toNat < 64 := hwR.toNat_lt (by decide)
    have hc : ctxRow (eiA m c) (btA m c) ⟨r.val, hr⟩ = ⟨w.toNat, hlt⟩ := Fin.ext (by
      unfold ctxRow
      rw [hw, wrapIdx_of_inRange 64#32 hwR]
      exact rowOf_of_inRange (by decide) (by decide) hwR)
    rw [hc]
    refine (sum_onehot_mul (⟨w.toNat, hlt⟩ : Fin 64) (fun g => hot g w) (fun g => V m c main_v15 (ix2 g j))
      (fun g => by
        unfold hot
        exact if_congr ((ofNat_eq_iff_of_inRange (by decide) hwR g).trans
          ⟨fun e => Fin.ext e, fun e => congrArg Fin.val e⟩) rfl rfl)).trans ?_
    exact HostSmall.V_ctx_table m c ⟨w.toNat, hlt⟩ j
  · exact HostSmall.V_b1 m c j

/-- Row r below 800000 of the launch's output is the specification's score of edge r. -/
theorem row_is_score (h : Cert.Pre_KernelIdeal m) (c : Dev nD) (r : Fin 802816) (hr : r.val < 800000) :
    rowScore (V m c main_v7) (V m c main_v8) (V m c main_v6) (V m c main_v10) (V m c main_v11) (V m c main_v12)
        (V m c main_v13) (V m c main_v15) (V m c main_v16) (V m c main_arg5) (V m c main_v17) (ix2 r (0 : Fin 1))
      = score (neA m c) (gcA m c) (eaA m c) (w1A m c) (b1A m c) (w2A m c) (b2A m c) (eiA m c) (btA m c) (ix1 ⟨r.val, hr⟩) := by
  unfold rowScore score
  refine congrArg₂ (· + ·) (Finset.sum_congr rfl fun j _ => ?_) (HostSmall.V_b2 m c)
  refine congrArg₂ (· * ·) (congrArg (fun x => max x 0) (hidden_eq m h c r hr j)) ?_
  exact congrFun (V_main_arg5 m c) _

/-- THE KERNEL'S RESULT: under the precondition the result buffer after the run is the specification's score. -/
theorem kernel_result (h : Cert.Pre_KernelIdeal m) (c : Dev nD) :
    Pipeline.afterTail₀ cfgs (dats m) 0 (V0 m) [hostOps1] c main_v20
      = score (neA m c) (gcA m c) (eaA m c) (w1A m c) (b1A m c) (w2A m c) (b2A m c) (eiA m c) (btA m c) := by
  rw [tail_value m c, RegionValue.region_value m c]
  funext i
  have hi : (i 0).val < 800000 := (i 0).isLt
  refine (row_is_score m h c ⟨(i 0).val, by omega⟩ hi).trans ?_
  congr 1
  funext a
  match a with
  | ⟨0, _⟩ => rfl

/-- THE KERNEL'S RUN, READ: under the precondition every weakly fair execution ends with the result buffer at the
    specification's score and the nine argument arrays as launched. -/
theorem run (h : Cert.Pre_KernelIdeal m) (ρ : Dev nD → PrngReg) :
    θ_run defs (onTc (τ := τ) (main (F := Ideal))) ⟨m, fun _ => 0, ρ⟩ (fun r => ∀ c : Dev nD,
      r.2.mem ((c.tc : Thread nD τ).loc main_v20)
        = score (neA m c) (gcA m c) (eaA m c) (w1A m c) (b1A m c) (w2A m c) (b2A m c) (eiA m c) (btA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ hr c =>
    ⟨((hr c).2 main_v20 (Pipeline.mem_restRefs_of main_v20 (by decide) (by decide))).trans (kernel_result m h c),
      ((hr c).2 main_arg0 (Pipeline.mem_restRefs_of main_arg0 (by decide) (by decide))).trans (W_main_arg0 m (dats m) c),
      ((hr c).2 main_arg1 (Pipeline.mem_restRefs_of main_arg1 (by decide) (by decide))).trans (W_main_arg1 m (dats m) c),
      ((hr c).2 main_arg2 (Pipeline.mem_restRefs_of main_arg2 (by decide) (by decide))).trans (W_main_arg2 m (dats m) c),
      ((hr c).2 main_arg3 (Pipeline.mem_restRefs_of main_arg3 (by decide) (by decide))).trans (W_main_arg3 m (dats m) c),
      ((hr c).2 main_arg4 (Pipeline.mem_restRefs_of main_arg4 (by decide) (by decide))).trans (W_main_arg4 m (dats m) c),
      ((hr c).1 9).trans (((dats m 0 c).arrAt_in 9 rfl _).trans ((A_eq m c 9).trans (V_main_arg5 m c))),
      ((hr c).2 main_arg6 (Pipeline.mem_restRefs_of main_arg6 (by decide) (by decide))).trans (W_main_arg6 m (dats m) c),
      ((hr c).2 main_arg7 (Pipeline.mem_restRefs_of main_arg7 (by decide) (by decide))).trans (W_main_arg7 m (dats m) c),
      ((hr c).2 main_arg8 (Pipeline.mem_restRefs_of main_arg8 (by decide) (by decide))).trans (W_main_arg8 m (dats m) c)⟩)
    (run_main m ρ)

end Cert.KernelIdeal.KernelScore

end
-- ==== Proof.RefStages.lean ====
/- The reference program's run, and its reading one stage at a time, under one import. -/
import proofs.«408209_j12635793785256_1_alg».proof.Proof.Gen.ReferenceIdeal.Run
import proofs.«408209_j12635793785256_1_alg».proof.Proof.Gen.ReferenceIdeal.Read
-- ==== Proof.RefValue.lean ====
/-
  The reference program computes the specification: its result array, entry by entry, is `score` of its argument arrays.
-/
import proofs.«408209_j12635793785256_1_alg».proof.Proof.RefStages
import proofs.«408209_j12635793785256_1_alg».proof.Proof.Spec
import proofs.«408209_j12635793785256_1_alg».proof.Proof.GatherRead
import proofs.«408209_j12635793785256_1_alg».proof.Proof.SumLaws
import Idealize.ShloMosaic.Lib.Pipeline.Value
import Idealize.ShloMosaic.Lib.ValueIdx
import Idealize.ShloMosaic.PureOps.Ideal.Laws

noncomputable section

namespace Cert.EdgeMlp.RefValue

open Idealize.ShloMosaic Idealize.ShloMosaic.ValueIdx Cert.EdgeMlp
open Cert.ReferenceIdeal Cert.ReferenceIdeal.Gen Cert.ReferenceIdeal.Read
open scoped BigOperators

/-! ### The endpoint words -/

/-- Entry e of the source column is the edge table's entry (0, e). -/
theorem src_word (x7 : IVec T2x800000 32) (e : Fin 800000) :
    val_main_v1 (F := Ideal) x7 (ix1 e) = x7 (ix2 (0 : Fin 2) e) := by
  rw [val_main_v1_apply, val_main_v0_apply]
  congr 1
  funext a
  match a with
  | ⟨0, _⟩ => exact Fin.ext rfl
  | ⟨1, _⟩ => apply Fin.ext; show e.val % 800000 = e.val; omega

/-- Entry e of the destination column is the edge table's entry (1, e). -/
theorem dst_word (x7 : IVec T2x800000 32) (e : Fin 800000) :
    val_main_v3 (F := Ideal) x7 (ix1 e) = x7 (ix2 (1 : Fin 2) e) := by
  rw [val_main_v3_apply, val_main_v2_apply]
  congr 1
  funext a
  match a with
  | ⟨0, _⟩ => exact Fin.ext rfl
  | ⟨1, _⟩ => apply Fin.ext; show e.val % 800000 = e.val; omega

/-- The source word as an array index would read it: counted from the end of the 50000 node rows when negative. -/
theorem src_wrapped (x7 : IVec T2x800000 32) (e : Fin 800000) :
    val_main_v8 (F := Ideal) x7 (ix1 e) = wrapIdx 50000#32 (x7 (ix2 (0 : Fin 2) e)) := by
  rw [val_main_v8_apply, val_main_v5_apply, val_main_v7_apply, val_main_v4_apply, val_main_v6_apply,
    val_main_c_apply, val_main_c_0_apply, src_word]
  rfl

/-- The program forms the same wrapped source word a second time, for the node-table read. -/
theorem src_wrapped' (x7 : IVec T2x800000 32) (e : Fin 800000) :
    val_main_v22 (F := Ideal) x7 (ix1 e) = wrapIdx 50000#32 (x7 (ix2 (0 : Fin 2) e)) := by
  rw [val_main_v22_apply, val_main_v19_apply, val_main_v21_apply, val_main_v18_apply, val_main_v20_apply,
    val_main_c_3_apply, val_main_c_4_apply, src_word]
  rfl

/-- The destination word, wrapped the same way. -/
theorem dst_wrapped (x7 : IVec T2x800000 32) (e : Fin 800000) :
    val_main_v29 (F := Ideal) x7 (ix1 e) = wrapIdx 50000#32 (x7 (ix2 (1 : Fin 2) e)) := by
  rw [val_main_v29_apply, val_main_v26_apply, val_main_v28_apply, val_main_v25_apply, val_main_v27_apply,
    val_main_c_5_apply, val_main_c_6_apply, dst_word]
  rfl

/-- A column [n, 1] built from a vector reads the vector's entry. -/
theorem col_idx (e : Fin 800000) : idx_main_v9 (ix2 e (0 : Fin 1)) = ix1 e := by
  funext a
  match a with
  | ⟨0, _⟩ => rfl

/-- The three start-word columns, entry (e, 0). -/
theorem src_col (x7 : IVec T2x800000 32) (e : Fin 800000) :
    val_main_v9 (F := Ideal) x7 (ix2 e (0 : Fin 1)) = wrapIdx 50000#32 (x7 (ix2 (0 : Fin 2) e)) := by
  rw [val_main_v9_apply, col_idx, src_wrapped]

theorem src_col' (x7 : IVec T2x800000 32) (e : Fin 800000) :
    val_main_v23 (F := Ideal) x7 (ix2 e (0 : Fin 1)) = wrapIdx 50000#32 (x7 (ix2 (0 : Fin 2) e)) := by
  rw [val_main_v23_apply]
  exact src_wrapped' x7 e

theorem dst_col (x7 : IVec T2x800000 32) (e : Fin 800000) :
    val_main_v30 (F := Ideal) x7 (ix2 e (0 : Fin 1)) = wrapIdx 50000#32 (x7 (ix2 (1 : Fin 2) e)) := by
  rw [val_main_v30_apply]
  exact dst_wrapped x7 e

/-! ### The gathers -/

/-- Reading the batch table at the source column gives each edge's graph word. -/
theorem graph_word (x7 : IVec T2x800000 32) (x8 : IVec T50000 32) (e : Fin 800000) :
    val_main_v10 (F := Ideal) x7 x8 (ix1 e) = graphWord x7 x8 e := by
  unfold val_main_v10
  rw [gather_entries_rowOf gather_S50000_S800000x1_S800000_n_0_n_n_0_1_1 rfl rfl rfl rfl (by decide), src_col]
  rfl

/-- The graph word wrapped against the 64 context rows, as a start-word column. -/
theorem ctx_col (x7 : IVec T2x800000 32) (x8 : IVec T50000 32) (e : Fin 800000) :
    val_main_v16 (F := Ideal) x7 x8 (ix2 e (0 : Fin 1)) = wrapIdx 64#32 (graphWord x7 x8 e) := by
  rw [val_main_v16_apply]
  show val_main_v15 (F := Ideal) x7 x8 (ix1 e) = _
  rw [val_main_v15_apply, val_main_v12_apply, val_main_v14_apply, val_main_v11_apply, val_main_v13_apply,
    val_main_c_1_apply, val_main_c_2_apply, graph_word]
  rfl

/-- Row e of the gathered context table is the context row of edge e. -/
theorem ctx_rows (x1 : FVec Ideal T64x128 .f32) (x7 : IVec T2x800000 32) (x8 : IVec T50000 32) (e : Fin 800000)
    (k : Fin 128) :
    val_main_v17 (F := Ideal) x1 x7 x8 (ix2 e k) = x1 (ix2 (ctxRow x7 x8 e) k) := by
  unfold val_main_v17
  rw [gather_rows_rowOf gather_S64x128_S800000x1_S800000x128_1_0_n_n_0_1_1128 rfl rfl rfl rfl rfl rfl rfl (by decide),
    ctx_col]
  rfl

/-- Row e of the first gathered node table is the source node's row. -/
theorem src_rows (x0 : FVec Ideal T50000x64 .f32) (x7 : IVec T2x800000 32) (e : Fin 800000) (k : Fin 64) :
    val_main_v24 (F := Ideal) x0 x7 (ix2 e k) = x0 (ix2 (nodeRow x7 0 e) k) := by
  unfold val_main_v24
  rw [gather_rows_rowOf gather_S50000x64_S800000x1_S800000x64_1_0_n_n_0_1_164 rfl rfl rfl rfl rfl rfl rfl (by decide),
    src_col']
  rfl

/-- Row e of the second gathered node table is the destination node's row. -/
theorem dst_rows (x0 : FVec Ideal T50000x64 .f32) (x7 : IVec T2x800000 32) (e : Fin 800000) (k : Fin 64) :
    val_main_v31 (F := Ideal) x0 x7 (ix2 e k) = x0 (ix2 (nodeRow x7 1 e) k) := by
  unfold val_main_v31
  rw [gather_rows_rowOf gather_S50000x64_S800000x1_S800000x64_1_0_n_n_0_1_164 rfl rfl rfl rfl rfl rfl rfl (by decide),
    dst_col]
  rfl

/-! ### The joined row -/

/-- Columns 0–63 of the joined row are the source node's row. -/
theorem joined_src (x0 : FVec Ideal T50000x64 .f32) (x1 : FVec Ideal T64x128 .f32) (x2 : FVec Ideal T800000x16 .f32)
    (x7 : IVec T2x800000 32) (x8 : IVec T50000 32) (e : Fin 800000) (k : Fin 64) :
    val_main_v32 (F := Ideal) x0 x1 x2 x7 x8 (ix2 e (⟨k.val, by omega⟩ : Fin 272)) = x0 (ix2 (nodeRow x7 0 e) k) := by
  unfold val_main_v32
  rw [concatenate_apply_piece (1 : Fin 2) _ _ (ix2 e (⟨k.val, by omega⟩ : Fin 272)) 0 (by show (0 : Nat) < 4; omega) S800000x64
    (val_main_v24 (F := Ideal) x0 x7) rfl rfl 0 rfl (ix2 e k)
    (fun b hb => by match b with
      | ⟨0, _⟩ => rfl
      | ⟨1, _⟩ => exact absurd rfl hb)
    (by show 0 + k.val = k.val; omega)]
  exact src_rows x0 x7 e k

/-- Columns 64–127 are the destination node's row. -/
theorem joined_dst (x0 : FVec Ideal T50000x64 .f32) (x1 : FVec Ideal T64x128 .f32) (x2 : FVec Ideal T800000x16 .f32)
    (x7 : IVec T2x800000 32) (x8 : IVec T50000 32) (e : Fin 800000) (k : Fin 64) :
    val_main_v32 (F := Ideal) x0 x1 x2 x7 x8 (ix2 e (⟨64 + k.val, by omega⟩ : Fin 272)) = x0 (ix2 (nodeRow x7 1 e) k) := by
  unfold val_main_v32
  rw [concatenate_apply_piece (1 : Fin 2) _ _ (ix2 e (⟨64 + k.val, by omega⟩ : Fin 272)) 1 (by show (1 : Nat) < 4; omega) S800000x64
    (val_main_v31 (F := Ideal) x0 x7) rfl rfl 64 rfl (ix2 e k)
    (fun b hb => by match b with
      | ⟨0, _⟩ => rfl
      | ⟨1, _⟩ => exact absurd rfl hb)
    rfl]
  exact dst_rows x0 x7 e k

/-- Columns 128–143 are the edge's own attributes. -/
theorem joined_attr (x0 : FVec Ideal T50000x64 .f32) (x1 : FVec Ideal T64x128 .f32) (x2 : FVec Ideal T800000x16 .f32)
    (x7 : IVec T2x800000 32) (x8 : IVec T50000 32) (e : Fin 800000) (k : Fin 16) :
    val_main_v32 (F := Ideal) x0 x1 x2 x7 x8 (ix2 e (⟨128 + k.val, by omega⟩ : Fin 272)) = x2 (ix2 e k) := by
  unfold val_main_v32
  rw [concatenate_apply_piece (1 : Fin 2) _ _ (ix2 e (⟨128 + k.val, by omega⟩ : Fin 272)) 2 (by show (2 : Nat) < 4; omega) S800000x16
    x2 rfl rfl 128 rfl (ix2 e k)
    (fun b hb => by match b with
      | ⟨0, _⟩ => rfl
      | ⟨1, _⟩ => exact absurd rfl hb)
    rfl]

/-- Columns 144–271 are the graph-context row. -/
theorem joined_ctx (x0 : FVec Ideal T50000x64 .f32) (x1 : FVec Ideal T64x128 .f32) (x2 : FVec Ideal T800000x16 .f32)
    (x7 : IVec T2x800000 32) (x8 : IVec T50000 32) (e : Fin 800000) (k : Fin 128) :
    val_main_v32 (F := Ideal) x0 x1 x2 x7 x8 (ix2 e (⟨144 + k.val, by omega⟩ : Fin 272)) = x1 (ix2 (ctxRow x7 x8 e) k) := by
  unfold val_main_v32
  rw [concatenate_apply_piece (1 : Fin 2) _ _ (ix2 e (⟨144 + k.val, by omega⟩ : Fin 272)) 3 (by show (3 : Nat) < 4; omega) S800000x128
    (val_main_v17 (F := Ideal) x1 x7 x8) rfl rfl 144 rfl (ix2 e k)
    (fun b hb => by match b with
      | ⟨0, _⟩ => rfl
      | ⟨1, _⟩ => exact absurd rfl hb)
    rfl]
  exact ctx_rows x1 x7 x8 e k

/-! ### The two layers -/

/-- The first layer before the rectifier, entry (e, j): the four partial contractions and the bias. -/
theorem hidden_at (x0 : FVec Ideal T50000x64 .f32) (x1 : FVec Ideal T64x128 .f32) (x2 : FVec Ideal T800000x16 .f32)
    (x3 : FVec Ideal T272x256 .f32) (x4 : FVec Ideal T256 .f32) (x7 : IVec T2x800000 32) (x8 : IVec T50000 32)
    (e : Fin 800000) (j : Fin 256) :
    val_main_v36 (F := Ideal) x0 x1 x2 x3 x4 x7 x8 (ix2 e j) = hidden x0 x1 x2 x3 x4 x7 x8 e j := by
  have el : ∀ k : Fin 272, lidx_main_v33 (ix2 e j) k = ix2 e k := fun k => by
    funext a
    match a with
    | ⟨0, _⟩ => rfl
    | ⟨1, _⟩ => rfl
  have er : ∀ k : Fin 272, ridx_main_v33 (ix2 e j) k = ix2 k j := fun k => by
    funext a
    match a with
    | ⟨0, _⟩ => rfl
    | ⟨1, _⟩ => rfl
  have eb : idx_main_v34 (idx_main_v35 (ix2 e j)) = ix1 j := by
    funext a
    match a with
    | ⟨0, _⟩ => rfl
  rw [val_main_v36_apply, val_main_v33_apply, val_main_v35_apply, val_main_v34_apply, eb]
  simp only [el, er]
  rw [sum_cut272 (fun k : Fin 272 => val_main_v32 (F := Ideal) x0 x1 x2 x7 x8 (ix2 e k) * x3 (ix2 k j))]
  simp only [joined_src, joined_dst, joined_attr, joined_ctx]
  rfl

/-- The second layer, entry e: the rectified hidden row against the one column, and the bias. -/
theorem ref_is_score (x0 : FVec Ideal T50000x64 .f32) (x1 : FVec Ideal T64x128 .f32) (x2 : FVec Ideal T800000x16 .f32)
    (x3 : FVec Ideal T272x256 .f32) (x4 : FVec Ideal T256 .f32) (x5 : FVec Ideal T256x1 .f32) (x6 : FVec Ideal T1 .f32)
    (x7 : IVec T2x800000 32) (x8 : IVec T50000 32) :
    val_main_v42 (F := Ideal) x0 x1 x2 x3 x4 x5 x6 x7 x8 = score x0 x1 x2 x3 x4 x5 x6 x7 x8 := by
  funext i
  obtain ⟨e, rfl⟩ : ∃ e : Fin 800000, i = ix1 e := ⟨i 0, eq_ix1 i⟩
  have e42 : idx_main_v42 (ix1 e) = ix2 e (0 : Fin 1) := by
    funext a
    match a with
    | ⟨0, _⟩ => apply Fin.ext; show e.val / 1 = e.val; omega
    | ⟨1, _⟩ => rfl
  have el : ∀ k : Fin 256, lidx_main_v38 (ix2 e (0 : Fin 1)) k = ix2 e k := fun k => by
    funext a
    match a with
    | ⟨0, _⟩ => rfl
    | ⟨1, _⟩ => rfl
  have er : ∀ k : Fin 256, ridx_main_v38 (ix2 e (0 : Fin 1)) k = ix2 k (0 : Fin 1) := fun k => by
    funext a
    match a with
    | ⟨0, _⟩ => rfl
    | ⟨1, _⟩ => rfl
  have eb : idx_main_v39 (idx_main_v40 (ix2 e (0 : Fin 1))) = ix1 (0 : Fin 1) := by
    funext a
    match a with
    | ⟨0, _⟩ => rfl
  rw [val_main_v42_apply, e42, val_main_v41_apply, val_main_v38_apply, val_main_v40_apply, val_main_v39_apply, eb]
  simp only [el, er, val_main_v37_apply, val_main_call0_v0_apply, val_main_call0_cst_apply, hidden_at,
    Ideal.ofBits_def, Ideal.ofBits_zero_f32, Ideal.maximumf_def, Ideal.addf_def]
  rfl

end Cert.EdgeMlp.RefValue

end
-- ==== Proof.lean ====
/-
  The certificate of the edge scorer: a gather-and-concatenate two-layer MLP over 800000 edges, computed by a kernel
  that never forms the 272-wide concatenated row against a reference that does.

  Both programs, read on the extended reals, compute `Cert.EdgeMlp.score` of the argument arrays (Proof/Spec.lean): for
  each edge the hidden row is the sum of four partial contractions of W1's row bands — with the two endpoint embeddings,
  the edge attributes and the graph-context row — plus the bias; the score is the rectified hidden row contracted with
  W2, plus its bias.
  * The reference forms the concatenated row and contracts it whole: a sum over 272 positions, cut at the bands
    (Proof/SumLaws.lean, Proof/RefValue.lean). It indexes with clamping gathers, and the specification is written in
    those terms, so this side asks nothing of the index inputs.
  * The kernel gathers with a filling gather, which trusts an index only inside its axis, and brings the context row
    in as a one-hot row times the precomputed product global_ctx · W1[144:]. Under the precondition — endpoint words
    inside the node axis, batch words inside the graph axis — the fill never happens and the one-hot row selects the
    product's row at the graph word (Proof/HostRows.lean, Proof/HostSmall.lean, Proof/RegionValue.lean,
    Proof/KernelScore.lean). Only 0 · x = 0, 1 · x = x and the regrouping of finite sums are used, which hold at the
    infinities as well: finiteness of the float inputs is not needed.
  The three frames: the two kernel programs' are the launch's frame run; the reference's is its run with the result
  dropped. Nothing was rewritten between the kernel and its idealization, so that conjunct is trivial.
-/
import proofs.«408209_j12635793785256_1_alg».proof.Defs
import proofs.«408209_j12635793785256_1_alg».proof.Proof.Gen.Kernel
import proofs.«408209_j12635793785256_1_alg».proof.Proof.Gen.Kernel.Skeleton
import proofs.«408209_j12635793785256_1_alg».proof.Proof.Gen.Kernel.Launch
import proofs.«408209_j12635793785256_1_alg».proof.Proof.Gen.Kernel.Points
import proofs.«408209_j12635793785256_1_alg».proof.Proof.Gen.Kernel.Frame
import proofs.«408209_j12635793785256_1_alg».proof.Proof.Gen.KernelIdeal
import proofs.«408209_j12635793785256_1_alg».proof.Proof.Gen.KernelIdeal.Skeleton
import proofs.«408209_j12635793785256_1_alg».proof.Proof.Gen.KernelIdeal.Launch
import proofs.«408209_j12635793785256_1_alg».proof.Proof.Gen.KernelIdeal.Points
import proofs.«408209_j12635793785256_1_alg».proof.Proof.Gen.KernelIdeal.Frame
import proofs.«408209_j12635793785256_1_alg».proof.Proof.Gen.ReferenceIdeal
import proofs.«408209_j12635793785256_1_alg».proof.Proof.Gen.ReferenceIdeal.Run
import proofs.«408209_j12635793785256_1_alg».proof.Proof.Gen.ReferenceIdeal.Read
import proofs.«408209_j12635793785256_1_alg».proof.Proof.Gen.Pre_finite_inputs
import proofs.«408209_j12635793785256_1_alg».proof.Proof.KernelScore
import proofs.«408209_j12635793785256_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the specification's score of the kernel's argument arrays: the kernel by its run read under
    the precondition, the reference by its run, its stage-by-stage reading, and the agreement of the arguments. -/
theorem algebraic : Cert.algebraic_KernelIdeal_ReferenceIdeal := by
  intro m ρ m' ρ' hpre hagree
  refine ⟨_, Cert.KernelIdeal.KernelScore.run m hpre ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.EdgeMlp.RefValue.ref_is_score]
  obtain ⟨a0, a1, a2, a3, a4, a5, a6, a7, a8⟩ := hagree c
  rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
